-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x39 : Shape := ⟨2, ![8192, 39]⟩
abbrev S512x9 : Shape := ⟨2, ![512, 9]⟩
abbrev S512 : Shape := ⟨1, ![512]⟩
abbrev S512x7 : Shape := ⟨2, ![512, 7]⟩
abbrev S23x512 : Shape := ⟨2, ![23, 512]⟩
abbrev S_ : Shape := ⟨0, ![]⟩

class Facts : Prop where
  bcast_S_S8192x39 : S_.BroadcastsInDim S8192x39 (![] : Fin 0 → Fin S8192x39.rank)
  reducesTo_S8192x39_S_d0_1 : S8192x39.ReducesTo [0, 1] S_
  h_S_ : 0 < S_.numel
  bcast_S_S512x9 : S_.BroadcastsInDim S512x9 (![] : Fin 0 → Fin S512x9.rank)
  reducesTo_S512x9_S_d0_1 : S512x9.ReducesTo [0, 1] S_
  bcast_S_S512 : S_.BroadcastsInDim S512 (![] : Fin 0 → Fin S512.rank)
  reducesTo_S512_S_d0 : S512.ReducesTo [0] S_
  bcast_S_S512x7 : S_.BroadcastsInDim S512x7 (![] : Fin 0 → Fin S512x7.rank)
  reducesTo_S512x7_S_d0_1 : S512x7.ReducesTo [0, 1] S_
  bcast_S_S23x512 : S_.BroadcastsInDim S23x512 (![] : Fin 0 → Fin S23x512.rank)
  reducesTo_S23x512_S_d0_1 : S23x512.ReducesTo [0, 1] S_

variable [Facts]

def fn_part1 {F : FTy → Type} [FloatOps F] (main_arg4 : FVec F S512 .f32) (main_arg5 : FVec F S23x512 .f32) (main_arg6 : FVec F S23x512 .f32) (main_v13 : IVec S_ 1) (main_v16 : IVec S512x7 1) : IVec S_ 1 :=
  let main_c_5 : IVec S_ 1 := constantI S_ 1 1#1
  let main_v17 : IVec S_ 1 := (fun x v => Host.reduce IntOp.andi x v reducesTo_S512x7_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S23x512 .f32 := Host.absf main_arg5
  let main_cst_8 : FVec F S_ .f32 := constant S_ .f32 0x7F800000#32
  let main_v25 : FVec F S23x512 .f32 := broadcastInDim S23x512 ![] bcast_S_S23x512 main_cst_8
  let main_v26 : IVec S23x512 1 := cmpf .olt main_v24 main_v25
  let main_c_9 : IVec S_ 1 := constantI S_ 1 1#1
  let main_v27 : IVec S_ 1 := (fun x v => Host.reduce IntOp.andi x v reducesTo_S23x512_S_d0_1 h_S_) main_v26 main_c_9
  let main_v28 : IVec S_ 1 := andi main_v23 main_v27
  let main_v29 : FVec F S23x512 .f32 := Host.absf main_arg6
  let main_cst_10 : FVec F S_ .f32 := constant S_ .f32 0x7F800000#32
  let main_v30 : FVec F S23x512 .f32 := broadcastInDim S23x512 ![] bcast_S_S23x512 main_cst_10
  let main_v31 : IVec S23x512 1 := cmpf .olt main_v29 main_v30
  let main_c_11 : IVec S_ 1 := constantI S_ 1 1#1
  let main_v32 : IVec S_ 1 := (fun x v => Host.reduce IntOp.andi x v reducesTo_S23x512_S_d0_1 h_S_) main_v31 main_c_11
  let main_v33 : IVec S_ 1 := andi main_v28 main_v32
  main_v33

def fn {F : FTy → Type} [FloatOps F] (main_arg0 : FVec F S8192x39 .f32) (main_arg1 : FVec F S512x9 .f32) (main_arg2 : FVec F S512 .f32) (main_arg3 : FVec F S512x7 .f32) (main_arg4 : FVec F S512 .f32) (main_arg5 : FVec F S23x512 .f32) (main_arg6 : FVec F S23x512 .f32) : IVec S_ 1 :=
  let main_v0 : FVec F S8192x39 .f32 := Host.absf main_arg0
  let main_cst : FVec F S_ .f32 := constant S_ .f32 0x7F800000#32
  let main_v1 : FVec F S8192x39 .f32 := broadcastInDim S8192x39 ![] bcast_S_S8192x39 main_cst
  let main_v2 : IVec S8192x39 1 := cmpf .olt main_v0 main_v1
  let main_c : IVec S_ 1 := constantI S_ 1 1#1
  let main_v3 : IVec S_ 1 := (fun x v => Host.reduce IntOp.andi x v reducesTo_S8192x39_S_d0_1 h_S_) main_v2 main_c
  let main_v4 : FVec F S512x9 .f32 := Host.absf main_arg1
  let main_cst_0 : FVec F S_ .f32 := constant S_ .f32 0x7F800000#32
  let main_v5 : FVec F S512x9 .f32 := broadcastInDim S512x9 ![] bcast_S_S512x9 main_cst_0
  let main_v6 : IVec S512x9 1 := cmpf .olt main_v4 main_v5
  let main_c_1 : IVec S_ 1 := constantI S_ 1 1#1
  let main_v7 : IVec S_ 1 := (fun x v => Host.reduce IntOp.andi x v reducesTo_S512x9_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x7 .f32 := Host.absf main_arg3
  let main_cst_4 : FVec F S_ .f32 := constant S_ .f32 0x7F800000#32
  let main_v15 : FVec F S512x7 .f32 := broadcastInDim S512x7 ![] bcast_S_S512x7 main_cst_4
  let main_v16 : IVec S512x7 1 := cmpf .olt main_v14 main_v15
  fn_part1 (F := F) main_arg4 main_arg5 main_arg6 main_v13 main_v16
-- ==== Kernel.lean ====
abbrev S8192x39 : Shape := ⟨2, ![8192, 39]⟩
abbrev S512x9 : Shape := ⟨2, ![512, 9]⟩
abbrev S512 : Shape := ⟨1, ![512]⟩
abbrev S512x7 : Shape := ⟨2, ![512, 7]⟩
abbrev S23x512 : Shape := ⟨2, ![23, 512]⟩
abbrev S8192x25x512 : Shape := ⟨3, ![8192, 25, 512]⟩
abbrev S128x39 : Shape := ⟨2, ![128, 39]⟩
abbrev S128x25x512 : Shape := ⟨3, ![128, 25, 512]⟩
abbrev S128x3 : Shape := ⟨2, ![128, 3]⟩
abbrev S128x2 : Shape := ⟨2, ![128, 2]⟩
abbrev S128x1 : Shape := ⟨2, ![128, 1]⟩
abbrev S128x9 : Shape := ⟨2, ![128, 9]⟩
abbrev S128x7 : Shape := ⟨2, ![128, 7]⟩
abbrev S128x22 : Shape := ⟨2, ![128, 22]⟩
abbrev S128x23 : Shape := ⟨2, ![128, 23]⟩
abbrev S9x512 : Shape := ⟨2, ![9, 512]⟩
abbrev S128x512 : Shape := ⟨2, ![128, 512]⟩
abbrev S1x512 : Shape := ⟨2, ![1, 512]⟩
abbrev S7x512 : Shape := ⟨2, ![7, 512]⟩
abbrev S128x23x1 : Shape := ⟨3, ![128, 23, 1]⟩
abbrev S1x23x512 : Shape := ⟨3, ![1, 23, 512]⟩
abbrev S128x23x512 : Shape := ⟨3, ![128, 23, 512]⟩
abbrev S128x1x512 : Shape := ⟨3, ![128, 1, 512]⟩
abbrev S128x22x512 : Shape := ⟨3, ![128, 22, 512]⟩

abbrev nBuf : Space → Nat
  | .hbm => 8
  | .vmem => 10
  | .smem => 0
  | _ => 0

abbrev bufTy : (tb : Table) → Fin (tcTables nBuf tb) → BufTy
  | .hbm, ⟨0, _⟩ => ⟨S8192x39, .f32⟩
  | .hbm, ⟨1, _⟩ => ⟨S512x9, .f32⟩
  | .hbm, ⟨2, _⟩ => ⟨S512, .f32⟩
  | .hbm, ⟨3, _⟩ => ⟨S512x7, .f32⟩
  | .hbm, ⟨4, _⟩ => ⟨S512, .f32⟩
  | .hbm, ⟨5, _⟩ => ⟨S23x512, .f32⟩
  | .hbm, ⟨6, _⟩ => ⟨S23x512, .f32⟩
  | .hbm, ⟨7, _⟩ => ⟨S8192x25x512, .f32⟩
  | .local _ .vmem, ⟨0, _⟩ => ⟨S128x39, .f32⟩
  | .local _ .vmem, ⟨1, _⟩ => ⟨S128x39, .f32⟩
  | .local _ .vmem, ⟨2, _⟩ => ⟨S512x9, .f32⟩
  | .local _ .vmem, ⟨3, _⟩ => ⟨S512, .f32⟩
  | .local _ .vmem, ⟨4, _⟩ => ⟨S512x7, .f32⟩
  | .local _ .vmem, ⟨5, _⟩ => ⟨S512, .f32⟩
  | .local _ .vmem, ⟨6, _⟩ => ⟨S23x512, .f32⟩
  | .local _ .vmem, ⟨7, _⟩ => ⟨S23x512, .f32⟩
  | .local _ .vmem, ⟨8, _⟩ => ⟨S128x25x512, .f32⟩
  | .local _ .vmem, ⟨9, _⟩ => ⟨S128x25x512, .f32⟩
  | _, _ => ⟨S8192x39, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x39 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x9 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x7 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S23x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S23x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x25x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  inb_S128x39_S128x39_0_0 : ∀ a, (![0, 0] : Fin 2 → Nat) a + S128x39.size a ≤ S128x39.size a
  h_S128x39 : 0 < S128x39.numel
  slices_S128x39_o0_0_S128x3 : S128x39.Slices ![0, 0] S128x3
  slices_S128x39_o0_27_S128x2 : S128x39.Slices ![0, 27] S128x2
  slices_S128x39_o0_32_S128x3 : S128x39.Slices ![0, 32] S128x3
  slices_S128x39_o0_38_S128x1 : S128x39.Slices ![0, 38] S128x1
  concatenates_S128x3_S128x2_S128x3_S128x1_S128x9_d1 : Shape.Concatenates [S128x3, S128x2, S128x3, S128x1] S128x9 1
  slices_S128x39_o0_4_S128x1 : S128x39.Slices ![0, 4] S128x1
  slices_S128x39_o0_29_S128x3 : S128x39.Slices ![0, 29] S128x3
  slices_S128x39_o0_35_S128x3 : S128x39.Slices ![0, 35] S128x3
  concatenates_S128x1_S128x3_S128x3_S128x7_d1 : Shape.Concatenates [S128x1, S128x3, S128x3] S128x7 1
  slices_S128x39_o0_3_S128x1 : S128x39.Slices ![0, 3] S128x1
  slices_S128x39_o0_5_S128x22 : S128x39.Slices ![0, 5] S128x22
  concatenates_S128x1_S128x22_S128x23_d1 : Shape.Concatenates [S128x1, S128x22] S128x23 1
  inb_S512x9_S512x9_0_0 : ∀ a, (![0, 0] : Fin 2 → Nat) a + S512x9.size a ≤ S512x9.size a
  h_S512x9 : 0 < S512x9.numel
  inb_S512_S512_0 : ∀ a, (![0] : Fin 1 → Nat) a + S512.size a ≤ S512.size a
  h_S512 : 0 < S512.numel
  transposes_S512x9_p1_0_S9x512 : S512x9.Transposes [1, 0] S9x512
  shapeCasts_S512_S1x512 : S512.ShapeCasts S1x512
  broadcasts_S1x512_S128x512 : S1x512.Broadcasts S128x512
  inb_S512x7_S512x7_0_0 : ∀ a, (![0, 0] : Fin 2 → Nat) a + S512x7.size a ≤ S512x7.size a
  h_S512x7 : 0 < S512x7.numel
  transposes_S512x7_p1_0_S7x512 : S512x7.Transposes [1, 0] S7x512
  inb_S23x512_S23x512_0_0 : ∀ a, (![0, 0] : Fin 2 → Nat) a + S23x512.size a ≤ S23x512.size a
  h_S23x512 : 0 < S23x512.numel
  shapeCasts_S128x23_S128x23x1 : S128x23.ShapeCasts S128x23x1
  shapeCasts_S23x512_S1x23x512 : S23x512.ShapeCasts S1x23x512
  broadcasts_S128x23x1_S128x23x512 : S128x23x1.Broadcasts S128x23x512
  broadcasts_S1x23x512_S128x23x512 : S1x23x512.Broadcasts S128x23x512
  shapeCasts_S128x512_S128x1x512 : S128x512.ShapeCasts S128x1x512
  slices_S128x23x512_o0_0_0_S128x1x512 : S128x23x512.Slices ![0, 0, 0] S128x1x512
  slices_S128x23x512_o0_1_0_S128x22x512 : S128x23x512.Slices ![0, 1, 0] S128x22x512
  concatenates_S128x1x512_S128x1x512_S128x1x512_S128x22x512_S128x25x512_d1 : Shape.Concatenates [S128x1x512, S128x1x512, S128x1x512, S128x22x512] S128x25x512 1
  inb_S128x25x512_S128x25x512_0_0_0 : ∀ a, (![0, 0, 0] : Fin 3 → Nat) a + S128x25x512.size a ≤ S128x25x512.size a
  h_S128x25x512 : 0 < S128x25x512.numel
  dot_S128x9_S9x512_S128x512_1_0_0_1_n_n_wf : DotDims.WF S128x9 S9x512 S128x512 [1] [0] [0] [1] [] []
  dot_S128x7_S7x512_S128x512_1_0_0_1_n_n_wf : DotDims.WF S128x7 S7x512 S128x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x39.size a ≤ S8192x39.size a
  hwx0_0 : ∀ i : grid0.Coords, EltTy.bits .f32 = 32 ∨ (Rect.block (s := S8192x39) S128x39.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x9.size a ≤ S512x9.size a
  hwx0_1 : ∀ i : grid0.Coords, EltTy.bits .f32 = 32 ∨ (Rect.block (s := S512x9) S512x9.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x7.size a ≤ S512x7.size a
  hwx0_3 : ∀ i : grid0.Coords, EltTy.bits .f32 = 32 ∨ (Rect.block (s := S512x7) S512x7.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S23x512.size a ≤ S23x512.size a
  hwx0_5 : ∀ i : grid0.Coords, EltTy.bits .f32 = 32 ∨ (Rect.block (s := S23x512) S23x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S23x512.size a ≤ S23x512.size a
  hwx0_6 : ∀ i : grid0.Coords, EltTy.bits .f32 = 32 ∨ (Rect.block (s := S23x512) S23x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x25x512.size a ≤ S8192x25x512.size a
  hwx0_7 : ∀ i : grid0.Coords, EltTy.bits .f32 = 32 ∨ (Rect.block (s := S8192x25x512) S128x25x512.size (cc0_transform_7 i) (hinb0_7 i)).WholeWords (EltTy.packing .f32)

variable [Facts₀]

def dot_S128x9_S9x512_S128x512_1_0_0_1_n_n : DotDims S128x9 S9x512 S128x512 where
  lhsContracting := [1]
  rhsContracting := [0]
  lhsNonContracting := [0]
  rhsNonContracting := [1]
  lhsBatch := []
  rhsBatch := []
  wf := dot_S128x9_S9x512_S128x512_1_0_0_1_n_n_wf
def dot_S128x7_S7x512_S128x512_1_0_0_1_n_n : DotDims S128x7 S7x512 S128x512 where
  lhsContracting := [1]
  rhsContracting := [0]
  lhsNonContracting := [0]
  rhsNonContracting := [1]
  lhsBatch := []
  rhsBatch := []
  wf := dot_S128x7_S7x512_S128x512_1_0_0_1_n_n_wf

abbrev win0_0 : Pipeline.Window sig grid0 :=
  Pipeline.Window.ofSpec (Memref.whole main_arg0) S128x39.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x9.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x7.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S23x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S23x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S128x25x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x39 : Shape := ⟨2, ![8192, 39]⟩
abbrev S512x9 : Shape := ⟨2, ![512, 9]⟩
abbrev S512 : Shape := ⟨1, ![512]⟩
abbrev S512x7 : Shape := ⟨2, ![512, 7]⟩
abbrev S23x512 : Shape := ⟨2, ![23, 512]⟩
abbrev S9 : Shape := ⟨1, ![9]⟩
abbrev S7 : Shape := ⟨1, ![7]⟩
abbrev S23 : Shape := ⟨1, ![23]⟩
abbrev S_ : Shape := ⟨0, ![]⟩
abbrev S9x1 : Shape := ⟨2, ![9, 1]⟩
abbrev S8192x9 : Shape := ⟨2, ![8192, 9]⟩
abbrev S9x512 : Shape := ⟨2, ![9, 512]⟩
abbrev S8192x512 : Shape := ⟨2, ![8192, 512]⟩
abbrev S1x512 : Shape := ⟨2, ![1, 512]⟩
abbrev S7x1 : Shape := ⟨2, ![7, 1]⟩
abbrev S8192x7 : Shape := ⟨2, ![8192, 7]⟩
abbrev S7x512 : Shape := ⟨2, ![7, 512]⟩
abbrev S23x1 : Shape := ⟨2, ![23, 1]⟩
abbrev S8192x23 : Shape := ⟨2, ![8192, 23]⟩
abbrev S8192x23x1 : Shape := ⟨3, ![8192, 23, 1]⟩
abbrev S1x23x512 : Shape := ⟨3, ![1, 23, 512]⟩
abbrev S8192x23x512 : Shape := ⟨3, ![8192, 23, 512]⟩
abbrev S8192x1x512 : Shape := ⟨3, ![8192, 1, 512]⟩
abbrev S8192x22x512 : Shape := ⟨3, ![8192, 22, 512]⟩
abbrev S8192x25x512 : Shape := ⟨3, ![8192, 25, 512]⟩

abbrev nBuf : Space → Nat
  | .hbm => 54
  | .vmem => 0
  | .smem => 0
  | _ => 0

abbrev bufTy : (tb : Table) → Fin (tcTables nBuf tb) → BufTy
  | .hbm, ⟨0, _⟩ => ⟨S8192x39, .f32⟩
  | .hbm, ⟨1, _⟩ => ⟨S512x9, .f32⟩
  | .hbm, ⟨2, _⟩ => ⟨S512, .f32⟩
  | .hbm, ⟨3, _⟩ => ⟨S512x7, .f32⟩
  | .hbm, ⟨4, _⟩ => ⟨S512, .f32⟩
  | .hbm, ⟨5, _⟩ => ⟨S23x512, .f32⟩
  | .hbm, ⟨6, _⟩ => ⟨S23x512, .f32⟩
  | .hbm, ⟨7, _⟩ => ⟨S9, .i32⟩
  | .hbm, ⟨8, _⟩ => ⟨S9, .i1⟩
  | .hbm, ⟨9, _⟩ => ⟨S7, .i32⟩
  | .hbm, ⟨10, _⟩ => ⟨S7, .i1⟩
  | .hbm, ⟨11, _⟩ => ⟨S23, .i32⟩
  | .hbm, ⟨12, _⟩ => ⟨S23, .i1⟩
  | .hbm, ⟨13, _⟩ => ⟨S_, .i32⟩
  | .hbm, ⟨14, _⟩ => ⟨S9, .i32⟩
  | .hbm, ⟨15, _⟩ => ⟨S9, .i32⟩
  | .hbm, ⟨16, _⟩ => ⟨S9, .i32⟩
  | .hbm, ⟨17, _⟩ => ⟨S9x1, .i32⟩
  | .hbm, ⟨18, _⟩ => ⟨S8192x9, .f32⟩
  | .hbm, ⟨19, _⟩ => ⟨S9x512, .f32⟩
  | .hbm, ⟨20, _⟩ => ⟨S8192x512, .f32⟩
  | .hbm, ⟨21, _⟩ => ⟨S1x512, .f32⟩
  | .hbm, ⟨22, _⟩ => ⟨S8192x512, .f32⟩
  | .hbm, ⟨23, _⟩ => ⟨S8192x512, .f32⟩
  | .hbm, ⟨24, _⟩ => ⟨S_, .i32⟩
  | .hbm, ⟨25, _⟩ => ⟨S7, .i32⟩
  | .hbm, ⟨26, _⟩ => ⟨S7, .i32⟩
  | .hbm, ⟨27, _⟩ => ⟨S7, .i32⟩
  | .hbm, ⟨28, _⟩ => ⟨S7x1, .i32⟩
  | .hbm, ⟨29, _⟩ => ⟨S8192x7, .f32⟩
  | .hbm, ⟨30, _⟩ => ⟨S7x512, .f32⟩
  | .hbm, ⟨31, _⟩ => ⟨S8192x512, .f32⟩
  | .hbm, ⟨32, _⟩ => ⟨S1x512, .f32⟩
  | .hbm, ⟨33, _⟩ => ⟨S8192x512, .f32⟩
  | .hbm, ⟨34, _⟩ => ⟨S8192x512, .f32⟩
  | .hbm, ⟨35, _⟩ => ⟨S_, .i32⟩
  | .hbm, ⟨36, _⟩ => ⟨S23, .i32⟩
  | .hbm, ⟨37, _⟩ => ⟨S23, .i32⟩
  | .hbm, ⟨38, _⟩ => ⟨S23, .i32⟩
  | .hbm, ⟨39, _⟩ => ⟨S23x1, .i32⟩
  | .hbm, ⟨40, _⟩ => ⟨S8192x23, .f32⟩
  | .hbm, ⟨41, _⟩ => ⟨S8192x23x1, .f32⟩
  | .hbm, ⟨42, _⟩ => ⟨S1x23x512, .f32⟩
  | .hbm, ⟨43, _⟩ => ⟨S8192x23x512, .f32⟩
  | .hbm, ⟨44, _⟩ => ⟨S8192x23x512, .f32⟩
  | .hbm, ⟨45, _⟩ => ⟨S8192x23x512, .f32⟩
  | .hbm, ⟨46, _⟩ => ⟨S1x23x512, .f32⟩
  | .hbm, ⟨47, _⟩ => ⟨S8192x23x512, .f32⟩
  | .hbm, ⟨48, _⟩ => ⟨S8192x23x512, .f32⟩
  | .hbm, ⟨49, _⟩ => ⟨S8192x1x512, .f32⟩
  | .hbm, ⟨50, _⟩ => ⟨S8192x1x512, .f32⟩
  | .hbm, ⟨51, _⟩ => ⟨S8192x1x512, .f32⟩
  | .hbm, ⟨52, _⟩ => ⟨S8192x22x512, .f32⟩
  | .hbm, ⟨53, _⟩ => ⟨S8192x25x512, .f32⟩
  | _, _ => ⟨S8192x39, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_c_1 : Ref sig .tc := ⟨.hbm, 9, rfl⟩
abbrev main_c_2 : Ref sig .tc := ⟨.hbm, 10, rfl⟩
abbrev main_c_3 : Ref sig .tc := ⟨.hbm, 11, rfl⟩
abbrev main_c_4 : Ref sig .tc := ⟨.hbm, 12, rfl⟩
abbrev main_c_5 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c_6 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_7 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩

abbrev nD : Nat := 1
abbrev τ : Topo := Topo.v7x

variable {F : FTy → Type} [FloatOps F]

class Facts₀ : Prop where
  bcast_S_S9 : S_.BroadcastsInDim S9 (![] : Fin 0 → Fin S9.rank)
  bcast_S9_S9x1_0 : S9.BroadcastsInDim S9x1 (![0] : Fin 1 → Fin S9x1.rank)
  transposes_S512x9_S9x512_1_0 : S512x9.Transposes [1, 0] S9x512
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S7 : S_.BroadcastsInDim S7 (![] : Fin 0 → Fin S7.rank)
  bcast_S7_S7x1_0 : S7.BroadcastsInDim S7x1 (![0] : Fin 1 → Fin S7x1.rank)
  transposes_S512x7_S7x512_1_0 : S512x7.Transposes [1, 0] S7x512
  bcast_S_S23 : S_.BroadcastsInDim S23 (![] : Fin 0 → Fin S23.rank)
  bcast_S23_S23x1_0 : S23.BroadcastsInDim S23x1 (![0] : Fin 1 → Fin S23x1.rank)
  bcast_S8192x23_S8192x23x1_0_1 : S8192x23.BroadcastsInDim S8192x23x1 (![0, 1] : Fin 2 → Fin S8192x23x1.rank)
  bcast_S23x512_S1x23x512_1_2 : S23x512.BroadcastsInDim S1x23x512 (![1, 2] : Fin 2 → Fin S1x23x512.rank)
  bcast_S8192x23x1_S8192x23x512_0_1_2 : S8192x23x1.BroadcastsInDim S8192x23x512 (![0, 1, 2] : Fin 3 → Fin S8192x23x512.rank)
  bcast_S1x23x512_S8192x23x512_0_1_2 : S1x23x512.BroadcastsInDim S8192x23x512 (![0, 1, 2] : Fin 3 → Fin S8192x23x512.rank)
  bcast_S8192x512_S8192x1x512_0_2 : S8192x512.BroadcastsInDim S8192x1x512 (![0, 2] : Fin 2 → Fin S8192x1x512.rank)
  slices_S8192x23x512_S8192x1x512_0_0_0 : S8192x23x512.Slices ![0, 0, 0] S8192x1x512
  slices_S8192x23x512_S8192x22x512_0_1_0 : S8192x23x512.Slices ![0, 1, 0] S8192x22x512
  concatenates_S8192x1x512_S8192x1x512_S8192x1x512_S8192x22x512_S8192x25x512_d1 : Shape.Concatenates [S8192x1x512, S8192x1x512, S8192x1x512, S8192x22x512] S8192x25x512 1
  gather_S8192x39_S9x1_S8192x9_0_1_n_n_1_1_81921_wf : GatherDims.WF S8192x39 S9x1 S8192x9 [0] [1] [] [1] [] 1 ![8192, 1]
  dot_S8192x9_S9x512_S8192x512_1_0_0_1_n_n_wf : DotDims.WF S8192x9 S9x512 S8192x512 [1] [0] [0] [1] [] []
  gather_S8192x39_S7x1_S8192x7_0_1_n_n_1_1_81921_wf : GatherDims.WF S8192x39 S7x1 S8192x7 [0] [1] [] [1] [] 1 ![8192, 1]
  dot_S8192x7_S7x512_S8192x512_1_0_0_1_n_n_wf : DotDims.WF S8192x7 S7x512 S8192x512 [1] [0] [0] [1] [] []
  gather_S8192x39_S23x1_S8192x23_0_1_n_n_1_1_81921_wf : GatherDims.WF S8192x39 S23x1 S8192x23 [0] [1] [] [1] [] 1 ![8192, 1]

variable [Facts₀]

def gather_S8192x39_S9x1_S8192x9_0_1_n_n_1_1_81921 : GatherDims S8192x39 S9x1 S8192x9 where
  offsetDims := [0]
  collapsedSliceDims := [1]
  operandBatchingDims := []
  startIndicesBatchingDims := []
  startIndexMap := [1]
  indexVectorDim := 1
  sliceSizes := ![8192, 1]
  wf := gather_S8192x39_S9x1_S8192x9_0_1_n_n_1_1_81921_wf
def dot_S8192x9_S9x512_S8192x512_1_0_0_1_n_n : DotDims S8192x9 S9x512 S8192x512 where
  lhsContracting := [1]
  rhsContracting := [0]
  lhsNonContracting := [0]
  rhsNonContracting := [1]
  lhsBatch := []
  rhsBatch := []
  wf := dot_S8192x9_S9x512_S8192x512_1_0_0_1_n_n_wf
def gather_S8192x39_S7x1_S8192x7_0_1_n_n_1_1_81921 : GatherDims S8192x39 S7x1 S8192x7 where
  offsetDims := [0]
  collapsedSliceDims := [1]
  operandBatchingDims := []
  startIndicesBatchingDims := []
  startIndexMap := [1]
  indexVectorDim := 1
  sliceSizes := ![8192, 1]
  wf := gather_S8192x39_S7x1_S8192x7_0_1_n_n_1_1_81921_wf
def dot_S8192x7_S7x512_S8192x512_1_0_0_1_n_n : DotDims S8192x7 S7x512 S8192x512 where
  lhsContracting := [1]
  rhsContracting := [0]
  lhsNonContracting := [0]
  rhsNonContracting := [1]
  lhsBatch := []
  rhsBatch := []
  wf := dot_S8192x7_S7x512_S8192x512_1_0_0_1_n_n_wf
def gather_S8192x39_S23x1_S8192x23_0_1_n_n_1_1_81921 : GatherDims S8192x39 S23x1 S8192x23 where
  offsetDims := [0]
  collapsedSliceDims := [1]
  operandBatchingDims := []
  startIndicesBatchingDims := []
  startIndexMap := [1]
  indexVectorDim := 1
  sliceSizes := ![8192, 1]
  wf := gather_S8192x39_S23x1_S8192x23_0_1_n_n_1_1_81921_wf

class Facts : Prop extends Facts₀ where

variable [Facts]
-- ==== Proof.RefRun.lean ====
/-
  The reference program's run, read back.

  The reference is a straight line of 47 host operations and launches no kernel: three index tables (the columns
  of the forehand, palm and single-sensor groups) each normalised by the wrap of negative indices (add 39 where the
  index is negative — nowhere, the masks are all false), three column gathers of the readings, two dense layers
  (transpose, contraction, bias broadcast, sum), the rank-one product and bias of the single sensors, and the
  concatenation along the token axis.  Its run therefore ends, on every fair schedule, with the result buffer at
  the operations' composed value of the argument arrays and the arguments untouched.
-/
import proofs.«110688_j64269890618106_1_alg».proof.Proof.Gen.ReferenceIdeal
import proofs.«110688_j64269890618106_1_alg».proof.Proof.Gen.KernelIdeal.Value
import Idealize.ShloMosaic.Lib.StableHlo.Run

noncomputable section

namespace Cert.RefTokens

open Cert.ReferenceIdeal Cert.ReferenceIdeal.Gen Idealize.ShloMosaic Idealize.ShloMosaic.TcCoe Idealize.SL.Sem Idealize.ShloMosaic.StableHlo

variable {F : FTy → Type} [FloatOps F]

/-- The reference's operations, in program order. -/
abbrev ops : List (HloOp τ sig (Elt F)) :=
  [ nullary main_c (fun i => lit0 (S9.rowMajor i)),
    nullary main_c_0 (constantI S9 1 0#1),
    nullary main_c_1 (fun i => lit1 (S7.rowMajor i)),
    nullary main_c_2 (constantI S7 1 0#1),
    nullary main_c_3 (fun i => lit2 (S23.rowMajor i)),
    nullary main_c_4 (constantI S23 1 0#1),
    nullary main_c_5 (constantI S_ 32 39#32),
    unary main_c_5 main_v0 (broadcastInDim S9 ![] bcast_S_S9 : (⟨S_, .i32⟩ : BufTy).Contents (Elt F) → (⟨S9, .i32⟩ : BufTy).Contents (Elt F)),
    binary main_c main_v0 main_v1 (addi : (⟨S9, .i32⟩ : BufTy).Contents (Elt F) → (⟨S9, .i32⟩ : BufTy).Contents (Elt F) → (⟨S9, .i32⟩ : BufTy).Contents (Elt F)),
    ternary main_c_0 main_v1 main_c main_v2 (select : (⟨S9, .i1⟩ : BufTy).Contents (Elt F) → (⟨S9, .i32⟩ : BufTy).Contents (Elt F) → (⟨S9, .i32⟩ : BufTy).Contents (Elt F) → (⟨S9, .i32⟩ : BufTy).Contents (Elt F)),
    unary main_v2 main_v3 (broadcastInDim S9x1 ![0] bcast_S9_S9x1_0 : (⟨S9, .i32⟩ : BufTy).Contents (Elt F) → (⟨S9x1, .i32⟩ : BufTy).Contents (Elt F)),
    binary main_arg0 main_v3 main_v4 ((fun x i => Host.gather gather_S8192x39_S9x1_S8192x9_0_1_n_n_1_1_81921 x i) : (⟨S8192x39, .f32⟩ : BufTy).Contents (Elt F) → (⟨S9x1, .i32⟩ : BufTy).Contents (Elt F) → (⟨S8192x9, .f32⟩ : BufTy).Contents (Elt F)),
    unary main_arg1 main_v5 ((transpose S9x512 [1, 0] · transposes_S512x9_S9x512_1_0) : (⟨S512x9, .f32⟩ : BufTy).Contents (Elt F) → (⟨S9x512, .f32⟩ : BufTy).Contents (Elt F)),
    binary main_v4 main_v5 main_v6 ((fun l r => Host.dotGeneral dot_S8192x9_S9x512_S8192x512_1_0_0_1_n_n none l r) : (⟨S8192x9, .f32⟩ : BufTy).Contents (Elt F) → (⟨S9x512, .f32⟩ : BufTy).Contents (Elt F) → (⟨S8192x512, .f32⟩ : BufTy).Contents (Elt F)),
    unary main_arg2 main_v7 (broadcastInDim S1x512 ![1] bcast_S512_S1x512_1 : (⟨S512, .f32⟩ : BufTy).Contents (Elt F) → (⟨S1x512, .f32⟩ : BufTy).Contents (Elt F)),
    unary main_v7 main_v8 (broadcastInDim S8192x512 ![0, 1] bcast_S1x512_S8192x512_0_1 : (⟨S1x512, .f32⟩ : BufTy).Contents (Elt F) → (⟨S8192x512, .f32⟩ : BufTy).Contents (Elt F)),
    binary main_v6 main_v8 main_v9 (addf : (⟨S8192x512, .f32⟩ : BufTy).Contents (Elt F) → (⟨S8192x512, .f32⟩ : BufTy).Contents (Elt F) → (⟨S8192x512, .f32⟩ : BufTy).Contents (Elt F)),
    nullary main_c_6 (constantI S_ 32 39#32),
    unary main_c_6 main_v10 (broadcastInDim S7 ![] bcast_S_S7 : (⟨S_, .i32⟩ : BufTy).Contents (Elt F) → (⟨S7, .i32⟩ : BufTy).Contents (Elt F)),
    binary main_c_1 main_v10 main_v11 (addi : (⟨S7, .i32⟩ : BufTy).Contents (Elt F) → (⟨S7, .i32⟩ : BufTy).Contents (Elt F) → (⟨S7, .i32⟩ : BufTy).Contents (Elt F)),
    ternary main_c_2 main_v11 main_c_1 main_v12 (select : (⟨S7, .i1⟩ : BufTy).Contents (Elt F) → (⟨S7, .i32⟩ : BufTy).Contents (Elt F) → (⟨S7, .i32⟩ : BufTy).Contents (Elt F) → (⟨S7, .i32⟩ : BufTy).Contents (Elt F)),
    unary main_v12 main_v13 (broadcastInDim S7x1 ![0] bcast_S7_S7x1_0 : (⟨S7, .i32⟩ : BufTy).Contents (Elt F) → (⟨S7x1, .i32⟩ : BufTy).Contents (Elt F)),
    binary main_arg0 main_v13 main_v14 ((fun x i => Host.gather gather_S8192x39_S7x1_S8192x7_0_1_n_n_1_1_81921 x i) : (⟨S8192x39, .f32⟩ : BufTy).Contents (Elt F) → (⟨S7x1, .i32⟩ : BufTy).Contents (Elt F) → (⟨S8192x7, .f32⟩ : BufTy).Contents (Elt F)),
    unary main_arg3 main_v15 ((transpose S7x512 [1, 0] · transposes_S512x7_S7x512_1_0) : (⟨S512x7, .f32⟩ : BufTy).Contents (Elt F) → (⟨S7x512, .f32⟩ : BufTy).Contents (Elt F)),
    binary main_v14 main_v15 main_v16 ((fun l r => Host.dotGeneral dot_S8192x7_S7x512_S8192x512_1_0_0_1_n_n none l r) : (⟨S8192x7, .f32⟩ : BufTy).Contents (Elt F) → (⟨S7x512, .f32⟩ : BufTy).Contents (Elt F) → (⟨S8192x512, .f32⟩ : BufTy).Contents (Elt F)),
    unary main_arg4 main_v17 (broadcastInDim S1x512 ![1] bcast_S512_S1x512_1 : (⟨S512, .f32⟩ : BufTy).Contents (Elt F) → (⟨S1x512, .f32⟩ : BufTy).Contents (Elt F)),
    unary main_v17 main_v18 (broadcastInDim S8192x512 ![0, 1] bcast_S1x512_S8192x512_0_1 : (⟨S1x512, .f32⟩ : BufTy).Contents (Elt F) → (⟨S8192x512, .f32⟩ : BufTy).Contents (Elt F)),
    binary main_v16 main_v18 main_v19 (addf : (⟨S8192x512, .f32⟩ : BufTy).Contents (Elt F) → (⟨S8192x512, .f32⟩ : BufTy).Contents (Elt F) → (⟨S8192x512, .f32⟩ : BufTy).Contents (Elt F)),
    nullary main_c_7 (constantI S_ 32 39#32),
    unary main_c_7 main_v20 (broadcastInDim S23 ![] bcast_S_S23 : (⟨S_, .i32⟩ : BufTy).Contents (Elt F) → (⟨S23, .i32⟩ : BufTy).Contents (Elt F)),
    binary main_c_3 main_v20 main_v21 (addi : (⟨S23, .i32⟩ : BufTy).Contents (Elt F) → (⟨S23, .i32⟩ : BufTy).Contents (Elt F) → (⟨S23, .i32⟩ : BufTy).Contents (Elt F)),
    ternary main_c_4 main_v21 main_c_3 main_v22 (select : (⟨S23, .i1⟩ : BufTy).Contents (Elt F) → (⟨S23, .i32⟩ : BufTy).Contents (Elt F) → (⟨S23, .i32⟩ : BufTy).Contents (Elt F) → (⟨S23, .i32⟩ : BufTy).Contents (Elt F)),
    unary main_v22 main_v23 (broadcastInDim S23x1 ![0] bcast_S23_S23x1_0 : (⟨S23, .i32⟩ : BufTy).Contents (Elt F) → (⟨S23x1, .i32⟩ : BufTy).Contents (Elt F)),
    binary main_arg0 main_v23 main_v24 ((fun x i => Host.gather gather_S8192x39_S23x1_S8192x23_0_1_n_n_1_1_81921 x i) : (⟨S8192x39, .f32⟩ : BufTy).Contents (Elt F) → (⟨S23x1, .i32⟩ : BufTy).Contents (Elt F) → (⟨S8192x23, .f32⟩ : BufTy).Contents (Elt F)),
    unary main_v24 main_v25 (broadcastInDim S8192x23x1 ![0, 1] bcast_S8192x23_S8192x23x1_0_1 : (⟨S8192x23, .f32⟩ : BufTy).Contents (Elt F) → (⟨S8192x23x1, .f32⟩ : BufTy).Contents (Elt F)),
    unary main_arg5 main_v26 (broadcastInDim S1x23x512 ![1, 2] bcast_S23x512_S1x23x512_1_2 : (⟨S23x512, .f32⟩ : BufTy).Contents (Elt F) → (⟨S1x23x512, .f32⟩ : BufTy).Contents (Elt F)),
    unary main_v25 main_v27 (broadcastInDim S8192x23x512 ![0, 1, 2] bcast_S8192x23x1_S8192x23x512_0_1_2 : (⟨S8192x23x1, .f32⟩ : BufTy).Contents (Elt F) → (⟨S8192x23x512, .f32⟩ : BufTy).Contents (Elt F)),
    unary main_v26 main_v28 (broadcastInDim S8192x23x512 ![0, 1, 2] bcast_S1x23x512_S8192x23x512_0_1_2 : (⟨S1x23x512, .f32⟩ : BufTy).Contents (Elt F) → (⟨S8192x23x512, .f32⟩ : BufTy).Contents (Elt F)),
    binary main_v27 main_v28 main_v29 (mulf : (⟨S8192x23x512, .f32⟩ : BufTy).Contents (Elt F) → (⟨S8192x23x512, .f32⟩ : BufTy).Contents (Elt F) → (⟨S8192x23x512, .f32⟩ : BufTy).Contents (Elt F)),
    unary main_arg6 main_v30 (broadcastInDim S1x23x512 ![1, 2] bcast_S23x512_S1x23x512_1_2 : (⟨S23x512, .f32⟩ : BufTy).Contents (Elt F) → (⟨S1x23x512, .f32⟩ : BufTy).Contents (Elt F)),
    unary main_v30 main_v31 (broadcastInDim S8192x23x512 ![0, 1, 2] bcast_S1x23x512_S8192x23x512_0_1_2 : (⟨S1x23x512, .f32⟩ : BufTy).Contents (Elt F) → (⟨S8192x23x512, .f32⟩ : BufTy).Contents (Elt F)),
    binary main_v29 main_v31 main_v32 (addf : (⟨S8192x23x512, .f32⟩ : BufTy).Contents (Elt F) → (⟨S8192x23x512, .f32⟩ : BufTy).Contents (Elt F) → (⟨S8192x23x512, .f32⟩ : BufTy).Contents (Elt F)),
    unary main_v9 main_v33 (broadcastInDim S8192x1x512 ![0, 2] bcast_S8192x512_S8192x1x512_0_2 : (⟨S8192x512, .f32⟩ : BufTy).Contents (Elt F) → (⟨S8192x1x512, .f32⟩ : BufTy).Contents (Elt F)),
    unary main_v32 main_v34 ((extractStridedSlice S8192x1x512 ![0, 0, 0] · slices_S8192x23x512_S8192x1x512_0_0_0) : (⟨S8192x23x512, .f32⟩ : BufTy).Contents (Elt F) → (⟨S8192x1x512, .f32⟩ : BufTy).Contents (Elt F)),
    unary main_v19 main_v35 (broadcastInDim S8192x1x512 ![0, 2] bcast_S8192x512_S8192x1x512_0_2 : (⟨S8192x512, .f32⟩ : BufTy).Contents (Elt F) → (⟨S8192x1x512, .f32⟩ : BufTy).Contents (Elt F)),
    unary main_v32 main_v36 ((extractStridedSlice S8192x22x512 ![0, 1, 0] · slices_S8192x23x512_S8192x22x512_0_1_0) : (⟨S8192x23x512, .f32⟩ : BufTy).Contents (Elt F) → (⟨S8192x22x512, .f32⟩ : BufTy).Contents (Elt F)),
    nary ![main_v33, main_v34, main_v35, main_v36] main_v37 (fun u => concatenate S8192x25x512 1 [⟨S8192x1x512, u 0⟩, ⟨S8192x1x512, u 1⟩, ⟨S8192x1x512, u 2⟩, ⟨S8192x22x512, u 3⟩] concatenates_S8192x1x512_S8192x1x512_S8192x1x512_S8192x22x512_S8192x25x512_d1) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., nullary_bufs_sub .., nullary_bufs_sub .., nullary_bufs_sub .., nullary_bufs_sub .., nullary_bufs_sub .., unary_bufs_sub .., binary_bufs_sub .., ternary_bufs_sub .., unary_bufs_sub .., binary_bufs_sub .., unary_bufs_sub .., binary_bufs_sub .., unary_bufs_sub .., unary_bufs_sub .., binary_bufs_sub .., nullary_bufs_sub .., unary_bufs_sub .., binary_bufs_sub .., ternary_bufs_sub .., unary_bufs_sub .., binary_bufs_sub .., unary_bufs_sub .., binary_bufs_sub .., unary_bufs_sub .., unary_bufs_sub .., binary_bufs_sub .., nullary_bufs_sub .., unary_bufs_sub .., binary_bufs_sub .., ternary_bufs_sub .., unary_bufs_sub .., binary_bufs_sub .., unary_bufs_sub .., unary_bufs_sub .., unary_bufs_sub .., unary_bufs_sub .., binary_bufs_sub .., unary_bufs_sub .., unary_bufs_sub .., binary_bufs_sub .., unary_bufs_sub .., unary_bufs_sub .., unary_bufs_sub .., unary_bufs_sub .., nary_bufs_sub ..⟩

/-! ## The composed value -/

/-- An index table after the wrap of negative entries: where the (all-false) mask holds the entry plus 39, else
    the entry; then given a trailing unit axis. -/
def wrapFore : (⟨S9x1, .i32⟩ : BufTy).Contents (Elt F) :=
  broadcastInDim S9x1 ![0] bcast_S9_S9x1_0 (select (constantI S9 1 0#1) (addi (fun i => lit0 (S9.rowMajor i)) (broadcastInDim S9 ![] bcast_S_S9 (constantI S_ 32 39#32))) (fun i => lit0 (S9.rowMajor i)))
def wrapPalm : (⟨S7x1, .i32⟩ : BufTy).Contents (Elt F) :=
  broadcastInDim S7x1 ![0] bcast_S7_S7x1_0 (select (constantI S7 1 0#1) (addi (fun i => lit1 (S7.rowMajor i)) (broadcastInDim S7 ![] bcast_S_S7 (constantI S_ 32 39#32))) (fun i => lit1 (S7.rowMajor i)))
def wrapSingle : (⟨S23x1, .i32⟩ : BufTy).Contents (Elt F) :=
  broadcastInDim S23x1 ![0] bcast_S23_S23x1_0 (select (constantI S23 1 0#1) (addi (fun i => lit2 (S23.rowMajor i)) (broadcastInDim S23 ![] bcast_S_S23 (constantI S_ 32 39#32))) (fun i => lit2 (S23.rowMajor i)))

/-- The forehand dense layer over all rows: gathered columns times the transposed weights, plus the bias on every row. -/
def refFore (x : (⟨S8192x39, .f32⟩ : BufTy).Contents (Elt F)) (Wf : (⟨S512x9, .f32⟩ : BufTy).Contents (Elt F)) (bf : (⟨S512, .f32⟩ : BufTy).Contents (Elt F)) : (⟨S8192x512, .f32⟩ : BufTy).Contents (Elt F) :=
  addf (Host.dotGeneral dot_S8192x9_S9x512_S8192x512_1_0_0_1_n_n none (Host.gather gather_S8192x39_S9x1_S8192x9_0_1_n_n_1_1_81921 x (wrapFore (F := F))) (transpose S9x512 [1, 0] Wf transposes_S512x9_S9x512_1_0))
    (broadcastInDim S8192x512 ![0, 1] bcast_S1x512_S8192x512_0_1 (broadcastInDim S1x512 ![1] bcast_S512_S1x512_1 bf))
/-- The palm dense layer over all rows. -/
def refPalm (x : (⟨S8192x39, .f32⟩ : BufTy).Contents (Elt F)) (Wp : (⟨S512x7, .f32⟩ : BufTy).Contents (Elt F)) (bp : (⟨S512, .f32⟩ : BufTy).Contents (Elt F)) : (⟨S8192x512, .f32⟩ : BufTy).Contents (Elt F) :=
  addf (Host.dotGeneral dot_S8192x7_S7x512_S8192x512_1_0_0_1_n_n none (Host.gather gather_S8192x39_S7x1_S8192x7_0_1_n_n_1_1_81921 x (wrapPalm (F := F))) (transpose S7x512 [1, 0] Wp transposes_S512x7_S7x512_1_0))
    (broadcastInDim S8192x512 ![0, 1] bcast_S1x512_S8192x512_0_1 (broadcastInDim S1x512 ![1] bcast_S512_S1x512_1 bp))
/-- The single sensors over all rows: each gathered reading against its sensor's weight vector, plus its bias vector. -/
def refSingle (x : (⟨S8192x39, .f32⟩ : BufTy).Contents (Elt F)) (Ws bs : (⟨S23x512, .f32⟩ : BufTy).Contents (Elt F)) : (⟨S8192x23x512, .f32⟩ : BufTy).Contents (Elt F) :=
  addf (mulf (broadcastInDim S8192x23x512 ![0, 1, 2] bcast_S8192x23x1_S8192x23x512_0_1_2 (broadcastInDim S8192x23x1 ![0, 1] bcast_S8192x23_S8192x23x1_0_1 (Host.gather gather_S8192x39_S23x1_S8192x23_0_1_n_n_1_1_81921 x (wrapSingle (F := F)))))
      (broadcastInDim S8192x23x512 ![0, 1, 2] bcast_S1x23x512_S8192x23x512_0_1_2 (broadcastInDim S1x23x512 ![1, 2] bcast_S23x512_S1x23x512_1_2 Ws)))
    (broadcastInDim S8192x23x512 ![0, 1, 2] bcast_S1x23x512_S8192x23x512_0_1_2 (broadcastInDim S1x23x512 ![1, 2] bcast_S23x512_S1x23x512_1_2 bs))
/-- The reference's result: forehand, wrist, palm and the other single sensors side by side along the token axis. -/
def refOut (x : (⟨S8192x39, .f32⟩ : BufTy).Contents (Elt F)) (Wf : (⟨S512x9, .f32⟩ : BufTy).Contents (Elt F)) (bf : (⟨S512, .f32⟩ : BufTy).Contents (Elt F)) (Wp : (⟨S512x7, .f32⟩ : BufTy).Contents (Elt F)) (bp : (⟨S512, .f32⟩ : BufTy).Contents (Elt F)) (Ws bs : (⟨S23x512, .f32⟩ : BufTy).Contents (Elt F)) : (⟨S8192x25x512, .f32⟩ : BufTy).Contents (Elt F) :=
  concatenate S8192x25x512 1
    [⟨S8192x1x512, broadcastInDim S8192x1x512 ![0, 2] bcast_S8192x512_S8192x1x512_0_2 (refFore x Wf bf)⟩,
     ⟨S8192x1x512, extractStridedSlice S8192x1x512 ![0, 0, 0] (refSingle x Ws bs) slices_S8192x23x512_S8192x1x512_0_0_0⟩,
     ⟨S8192x1x512, broadcastInDim S8192x1x512 ![0, 2] bcast_S8192x512_S8192x1x512_0_2 (refPalm x Wp bp)⟩,
     ⟨S8192x22x512, extractStridedSlice S8192x22x512 ![0, 1, 0] (refSingle x Ws bs) slices_S8192x23x512_S8192x22x512_0_1_0⟩]
    concatenates_S8192x1x512_S8192x1x512_S8192x1x512_S8192x22x512_S8192x25x512_d1

/-! ## The run -/

set_option maxHeartbeats 4000000 in
/-- On every device, from any memory with zero counters: every weakly fair execution of the reference terminates with
    its result at `refOut` of the argument arrays, and the argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v37) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v37).trans (by after_results; rfl),
      (h c main_arg0).trans (by after_results),
      (h c main_arg1).trans (by after_results),
      (h c main_arg2).trans (by after_results),
      (h c main_arg3).trans (by after_results),
      (h c main_arg4).trans (by after_results),
      (h c main_arg5).trans (by after_results),
      (h c main_arg6).trans (by after_results)⟩)
    (run_seq scopedRefs_eq scopedSems_eq defs main (fun _ => ops) main_eq (fun _ => ops_sub) m ρ)

end Cert.RefTokens

end
-- ==== Proof.Tokens.lean ====
/-
  The token embedding both programs compute, as one function of the argument arrays.

  A row of the input has 39 sensor readings.  Nine of them (the forehand group) and seven of them (the palm
  group) each pass through a dense layer: a product with a 512×9, respectively 512×7, weight matrix plus a
  bias.  The remaining 23 readings are single sensors: each is scaled by its own 512-vector of weights and
  shifted by its own bias vector (a rank-one product).  The 25 resulting 512-vectors are laid out along the
  token axis in the order forehand, wrist (single sensor 0), palm, single sensors 1 … 22.

  Nothing here depends on the batch extent: a row's tokens depend on that row only, which is what lets a block
  of rows be treated on its own.
-/
import Idealize.ShloMosaic.PureOps.Ideal
import Idealize.ShloMosaic.Lib.ValueIdx
import Idealize.ShloMosaic.Lib.Pipeline.Value

noncomputable section

open scoped BigOperators

namespace Cert.Tokens

open Idealize.ShloMosaic Idealize.ShloMosaic.ValueIdx

/-- The columns of the forehand group, in order. -/
def foreCol : Fin 9 → Fin 39 := ![0, 1, 2, 27, 28, 32, 33, 34, 38]
/-- The columns of the palm group, in order. -/
def palmCol : Fin 7 → Fin 39 := ![4, 29, 30, 31, 35, 36, 37]
/-- The column of single sensor `j`: column 3 for the wrist, then columns 5 … 26. -/
def singleCol (j : Fin 23) : Fin 39 := ⟨if j.val = 0 then 3 else j.val + 4, by split <;> omega⟩

variable (xr : Fin 39 → EReal)
  (Wf : (⟨2, ![512, 9]⟩ : Shape).Idx → EReal) (bf : (⟨1, ![512]⟩ : Shape).Idx → EReal)
  (Wp : (⟨2, ![512, 7]⟩ : Shape).Idx → EReal) (bp : (⟨1, ![512]⟩ : Shape).Idx → EReal)
  (Ws bs : (⟨2, ![23, 512]⟩ : Shape).Idx → EReal)

/-- The forehand token of a row at feature `d`: the nine forehand readings against row `d` of the weights, plus the bias. -/
def tokFore (d : Fin 512) : EReal := (∑ k : Fin 9, xr (foreCol k) * Wf (ix2 d k)) + bf (ix1 d)
/-- The palm token of a row at feature `d`. -/
def tokPalm (d : Fin 512) : EReal := (∑ k : Fin 7, xr (palmCol k) * Wp (ix2 d k)) + bp (ix1 d)
/-- The token of single sensor `j` of a row at feature `d`: the reading times the sensor's weight, plus its bias. -/
def tokSingle (j : Fin 23) (d : Fin 512) : EReal := xr (singleCol j) * Ws (ix2 j d) + bs (ix2 j d)

/-- Token `q` of a row at feature `d`: forehand, wrist, palm, then single sensors 1 … 22. -/
def tokRow (q : Fin 25) (d : Fin 512) : EReal :=
  if q.val = 0 then tokFore xr Wf bf d
  else if q.val = 1 then tokSingle xr Ws bs 0 d
  else if q.val = 2 then tokPalm xr Wp bp d
  else tokSingle xr Ws bs ⟨q.val - 2, by omega⟩ d

/-- Row `b` of a matrix of readings. -/
def rowOf {B : Nat} (x : (⟨2, ![B, 39]⟩ : Shape).Idx → EReal) (b : Fin B) : Fin 39 → EReal := fun k => x (ix2 b k)

/-- The whole result for `B` rows of readings: entry (b, q, d) is token `q` of row `b` at feature `d`. -/
def tokens {B : Nat} (x : (⟨2, ![B, 39]⟩ : Shape).Idx → EReal) : (⟨3, ![B, 25, 512]⟩ : Shape).Idx → EReal :=
  fun i => tokRow (rowOf x (i 0)) Wf bf Wp bp Ws bs (i 1) (i 2)

theorem tokens_ix3 {B : Nat} (x : (⟨2, ![B, 39]⟩ : Shape).Idx → EReal) (b : Fin B) (q : Fin 25) (d : Fin 512) :
    tokens Wf bf Wp bp Ws bs x (ix3 b q d) = tokRow (rowOf x b) Wf bf Wp bp Ws bs q d := rfl

/-- Four arrays laid side by side along the token axis — one forehand token, the wrist token, one palm token and the
    22 remaining single-sensor tokens per row — are the whole result, once each is known entry by entry. -/
theorem concat_tokens {B : Nat} (x : (⟨2, ![B, 39]⟩ : Shape).Idx → EReal)
    (pf pw pp : (⟨3, ![B, 1, 512]⟩ : Shape).Idx → EReal) (ps : (⟨3, ![B, 22, 512]⟩ : Shape).Idx → EReal)
    (h : Shape.Concatenates [(⟨3, ![B, 1, 512]⟩ : Shape), ⟨3, ![B, 1, 512]⟩, ⟨3, ![B, 1, 512]⟩, ⟨3, ![B, 22, 512]⟩]
      (⟨3, ![B, 25, 512]⟩ : Shape) 1)
    (hf : ∀ (b : Fin B) (d : Fin 512), pf (ix3 b (0 : Fin 1) d) = tokFore (rowOf x b) Wf bf d)
    (hw : ∀ (b : Fin B) (d : Fin 512), pw (ix3 b (0 : Fin 1) d) = tokSingle (rowOf x b) Ws bs 0 d)
    (hp : ∀ (b : Fin B) (d : Fin 512), pp (ix3 b (0 : Fin 1) d) = tokPalm (rowOf x b) Wp bp d)
    (hs : ∀ (b : Fin B) (j : Fin 22) (d : Fin 512),
      ps (ix3 b j d) = tokSingle (rowOf x b) Ws bs ⟨j.val + 1, by omega⟩ d) :
    concatenate (⟨3, ![B, 25, 512]⟩ : Shape) 1
        [⟨(⟨3, ![B, 1, 512]⟩ : Shape), pf⟩, ⟨(⟨3, ![B, 1, 512]⟩ : Shape), pw⟩, ⟨(⟨3, ![B, 1, 512]⟩ : Shape), pp⟩,
          ⟨(⟨3, ![B, 22, 512]⟩ : Shape), ps⟩] h
      = tokens Wf bf Wp bp Ws bs x := by
  funext i
  obtain ⟨b, q, d, rfl⟩ : ∃ (b : Fin B) (q : Fin 25) (d : Fin 512), i = ix3 b q d := ⟨i 0, i 1, i 2, eq_ix3 i⟩
  rw [tokens_ix3]
  unfold tokRow
  by_cases h0 : q.val = 0
  · rw [if_pos h0, ← hf b d]
    refine concatenate_apply_piece 1 [⟨(⟨3, ![B, 1, 512]⟩ : Shape), pf⟩, ⟨(⟨3, ![B, 1, 512]⟩ : Shape), pw⟩, ⟨(⟨3, ![B, 1, 512]⟩ : Shape), pp⟩, ⟨(⟨3, ![B, 22, 512]⟩ : Shape), ps⟩] h (ix3 b q d) 0 (by show 0 < 4; omega) _ pf rfl rfl 0 rfl (ix3 b (0 : Fin 1) d) ?_ ?_
    · intro a ha
      match a with
      | ⟨0, _⟩ => rfl
      | ⟨1, _⟩ => exact absurd rfl ha
      | ⟨2, _⟩ => rfl
    · show 0 + 0 = q.val
      omega
  rw [if_neg h0]
  by_cases h1 : q.val = 1
  · rw [if_pos h1, ← hw b d]
    refine concatenate_apply_piece 1 [⟨(⟨3, ![B, 1, 512]⟩ : Shape), pf⟩, ⟨(⟨3, ![B, 1, 512]⟩ : Shape), pw⟩, ⟨(⟨3, ![B, 1, 512]⟩ : Shape), pp⟩, ⟨(⟨3, ![B, 22, 512]⟩ : Shape), ps⟩] h (ix3 b q d) 1 (by show 1 < 4; omega) _ pw rfl rfl 1 rfl (ix3 b (0 : Fin 1) d) ?_ ?_
    · intro a ha
      match a with
      | ⟨0, _⟩ => rfl
      | ⟨1, _⟩ => exact absurd rfl ha
      | ⟨2, _⟩ => rfl
    · show 1 + 0 = q.val
      omega
  rw [if_neg h1]
  by_cases h2 : q.val = 2
  · rw [if_pos h2, ← hp b d]
    refine concatenate_apply_piece 1 [⟨(⟨3, ![B, 1, 512]⟩ : Shape), pf⟩, ⟨(⟨3, ![B, 1, 512]⟩ : Shape), pw⟩, ⟨(⟨3, ![B, 1, 512]⟩ : Shape), pp⟩, ⟨(⟨3, ![B, 22, 512]⟩ : Shape), ps⟩] h (ix3 b q d) 2 (by show 2 < 4; omega) _ pp rfl rfl 2 rfl (ix3 b (0 : Fin 1) d) ?_ ?_
    · intro a ha
      match a with
      | ⟨0, _⟩ => rfl
      | ⟨1, _⟩ => exact absurd rfl ha
      | ⟨2, _⟩ => rfl
    · show 2 + 0 = q.val
      omega
  rw [if_neg h2]
  have hq : q.val - 3 < 22 := by have := q.isLt; omega
  have e := hs b ⟨q.val - 3, hq⟩ d
  have e' : (⟨(⟨q.val - 3, hq⟩ : Fin 22).val + 1, by omega⟩ : Fin 23) = ⟨q.val - 2, by omega⟩ := Fin.ext (by show q.val - 3 + 1 = q.val - 2; omega)
  rw [e'] at e
  rw [← e]
  refine concatenate_apply_piece 1 [⟨(⟨3, ![B, 1, 512]⟩ : Shape), pf⟩, ⟨(⟨3, ![B, 1, 512]⟩ : Shape), pw⟩, ⟨(⟨3, ![B, 1, 512]⟩ : Shape), pp⟩, ⟨(⟨3, ![B, 22, 512]⟩ : Shape), ps⟩] h (ix3 b q d) 3 (by show 3 < 4; omega) _ ps rfl rfl 3 rfl (ix3 b (⟨q.val - 3, hq⟩ : Fin 22) d) ?_ ?_
  · intro a ha
    match a with
    | ⟨0, _⟩ => rfl
    | ⟨1, _⟩ => exact absurd rfl ha
    | ⟨2, _⟩ => rfl
  · show 3 + (q.val - 3) = q.val
    omega

end Cert.Tokens

end
-- ==== Proof.LibRowLayers.lean ====
/-
  General lemmas: per-row layers read at an index, in the two spellings a kernel and a host program give them.

  * A unit axis inserted in the middle or at the end of a matrix's shape by a shape cast, read at an index.
  * A rank-3 array with a unit axis broadcast along that axis (the vector spelling, which aligns trailing axes,
    and the host spelling, which names the axes), read at an index.
  * A DENSE LAYER over the rows of a matrix: the matrix times the transpose of a weight matrix, plus a bias
    vector laid along every row.  At the exact values entry (p, d) is Σₖ x[p,k]·W[d,k] + bias[d], whether the
    product is a matrix unit's product into a zero accumulator or the host's contraction, and whichever way
    the bias is laid along the rows.
  * A RANK-ONE LAYER: x[p,j]·W[j,d] + b[j,d], from a matrix and two tables broadcast against each other.
  * A host GATHER OF COLUMNS of a matrix (whole columns picked by a one-column table of start indices): entry
    (p, k) is the matrix at row p and the k-th start index, read signed and clamped into the column range.

  All for arbitrary extents, at the exact (extended real) values where arithmetic is involved.  None of the
  identities needs finiteness: only 0 + s = s is used of the arithmetic.
-/
import Idealize.ShloMosaic.Lib.ValueLayout
import Idealize.ShloMosaic.Lib.KernelVsHost
import Idealize.ShloMosaic.Lib.StackMember

noncomputable section

open scoped BigOperators

namespace Cert.RowLayers

open Idealize.ShloMosaic Idealize.ShloMosaic.ValueIdx

/-! ## Unit axes added by a shape cast -/

section Casts
variable {α : Type}

/-- A matrix recast with a unit axis in the middle reads, at (i, ·, j), the matrix at (i, j). -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A matrix recast with a trailing unit axis reads, at (i, j, ·), the matrix at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-! ## Broadcasts along a unit axis, rank 3 -/

/-- An array with a trailing unit axis broadcast along it reads, at (p, j, d), the operand at (p, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (j : Fin b) (d : Fin c) :
    broadcastTo ⟨3, ![a, b, c]⟩ v h (ix3 p j d) = v (ix3 p j (0 : Fin 1)) := by
  refine broadcastTo_apply v h (ix3 p j d) (ix3 p j (0 : Fin 1)) fun ax => ?_
  match ax with
  | ⟨0, _⟩ =>
    show p.val = if a = 1 then 0 else p.val
    split
    · have := p.isLt; omega
    · rfl
  | ⟨1, _⟩ =>
    show j.val = if b = 1 then 0 else j.val
    split
    · have := j.isLt; omega
    · rfl
  | ⟨2, _⟩ => rfl

/-- An array with a leading unit axis broadcast along it reads, at (p, j, d), the operand at (0, j, d). -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (j : Fin b) (d : Fin c) :
    broadcastTo ⟨3, ![a, b, c]⟩ v h (ix3 p j d) = v (ix3 (0 : Fin 1) j d) := by
  refine broadcastTo_apply v h (ix3 p j d) (ix3 (0 : Fin 1) j d) fun ax => ?_
  match ax with
  | ⟨0, _⟩ => rfl
  | ⟨1, _⟩ =>
    show j.val = if b = 1 then 0 else j.val
    split
    · have := j.isLt; omega
    · rfl
  | ⟨2, _⟩ =>
    show d.val = if c = 1 then 0 else d.val
    split
    · have := d.isLt; omega
    · rfl

/-- The host's broadcast of a vector to a one-row matrix (axis 1) reads, at (·, d), the vector at d. -/
theorem broadcastInDim_b_1b_apply {b : ℕ} (v : (⟨1, ![b]⟩ : Shape).Idx → α)
    (h : (⟨1, ![b]⟩ : Shape).BroadcastsInDim ⟨2, ![1, b]⟩ ![1]) (u : Fin 1) (d : Fin b) :
    broadcastInDim ⟨2, ![1, b]⟩ ![1] h v (ix2 u d) = v (ix1 d) := by
  refine broadcastInDim_apply ![1] h v (ix2 u d) (ix1 d) fun ax => ?_
  match ax with
  | ⟨0, _⟩ =>
    show d.val = if b = 1 then 0 else d.val
    split
    · have := d.isLt; omega
    · rfl

/-- The host's broadcast of a matrix to a trailing unit axis (axes 0, 1) reads, at (p, j, ·), the matrix at (p, j). -/
theorem broadcastInDim_ab_ab1_apply {a b : ℕ} (v : (⟨2, ![a, b]⟩ : Shape).Idx → α)
    (h : (⟨2, ![a, b]⟩ : Shape).BroadcastsInDim ⟨3, ![a, b, 1]⟩ ![0, 1]) (p : Fin a) (j : Fin b) (u : Fin 1) :
    broadcastInDim ⟨3, ![a, b, 1]⟩ ![0, 1] h v (ix3 p j u) = v (ix2 p j) := by
  refine broadcastInDim_apply ![0, 1] h v (ix3 p j u) (ix2 p j) fun ax => ?_
  match ax with
  | ⟨0, _⟩ =>
    show p.val = if a = 1 then 0 else p.val
    split
    · have := p.isLt; omega
    · rfl
  | ⟨1, _⟩ =>
    show j.val = if b = 1 then 0 else j.val
    split
    · have := j.isLt; omega
    · rfl

/-- The host's broadcast of a matrix to a leading unit axis (axes 1, 2) reads, at (·, j, d), the matrix at (j, d). -/
theorem broadcastInDim_bc_1bc_apply {b c : ℕ} (v : (⟨2, ![b, c]⟩ : Shape).Idx → α)
    (h : (⟨2, ![b, c]⟩ : Shape).BroadcastsInDim ⟨3, ![1, b, c]⟩ ![1, 2]) (u : Fin 1) (j : Fin b) (d : Fin c) :
    broadcastInDim ⟨3, ![1, b, c]⟩ ![1, 2] h v (ix3 u j d) = v (ix2 j d) := by
  refine broadcastInDim_apply ![1, 2] h v (ix3 u j d) (ix2 j d) fun ax => ?_
  match ax with
  | ⟨0, _⟩ =>
    show j.val = if b = 1 then 0 else j.val
    split
    · have := j.isLt; omega
    · rfl
  | ⟨1, _⟩ =>
    show d.val = if c = 1 then 0 else d.val
    split
    · have := d.isLt; omega
    · rfl

/-- The host's broadcast of a matrix to a middle unit axis (axes 0, 2) reads, at (p, ·, d), the matrix at (p, d). -/
theorem broadcastInDim_ac_a1c_apply {a c : ℕ} (v : (⟨2, ![a, c]⟩ : Shape).Idx → α)
    (h : (⟨2, ![a, c]⟩ : Shape).BroadcastsInDim ⟨3, ![a, 1, c]⟩ ![0, 2]) (p : Fin a) (u : Fin 1) (d : Fin c) :
    broadcastInDim ⟨3, ![a, 1, c]⟩ ![0, 2] h v (ix3 p u d) = v (ix2 p d) := by
  refine broadcastInDim_apply ![0, 2] h v (ix3 p u d) (ix2 p d) fun ax => ?_
  match ax with
  | ⟨0, _⟩ =>
    show p.val = if a = 1 then 0 else p.val
    split
    · have := p.isLt; omega
    · rfl
  | ⟨1, _⟩ =>
    show d.val = if c = 1 then 0 else d.val
    split
    · have := d.isLt; omega
    · rfl

/-- The host's rank-3 broadcast along a trailing unit axis (all axes named) reads, at (p, j, d), the operand at (p, j, 0). -/
theorem broadcastInDim_ab1_abc_apply {a b c : ℕ} (v : (⟨3, ![a, b, 1]⟩ : Shape).Idx → α)
    (h : (⟨3, ![a, b, 1]⟩ : Shape).BroadcastsInDim ⟨3, ![a, b, c]⟩ ![0, 1, 2]) (p : Fin a) (j : Fin b) (d : Fin c) :
    broadcastInDim ⟨3, ![a, b, c]⟩ ![0, 1, 2] h v (ix3 p j d) = v (ix3 p j (0 : Fin 1)) := by
  refine broadcastInDim_apply ![0, 1, 2] h v (ix3 p j d) (ix3 p j (0 : Fin 1)) fun ax => ?_
  match ax with
  | ⟨0, _⟩ =>
    show p.val = if a = 1 then 0 else p.val
    split
    · have := p.isLt; omega
    · rfl
  | ⟨1, _⟩ =>
    show j.val = if b = 1 then 0 else j.val
    split
    · have := j.isLt; omega
    · rfl
  | ⟨2, _⟩ => rfl

/-- The host's rank-3 broadcast along a leading unit axis (all axes named) reads, at (p, j, d), the operand at (0, j, d). -/
theorem broadcastInDim_1bc_abc_apply {a b c : ℕ} (v : (⟨3, ![1, b, c]⟩ : Shape).Idx → α)
    (h : (⟨3, ![1, b, c]⟩ : Shape).BroadcastsInDim ⟨3, ![a, b, c]⟩ ![0, 1, 2]) (p : Fin a) (j : Fin b) (d : Fin c) :
    broadcastInDim ⟨3, ![a, b, c]⟩ ![0, 1, 2] h v (ix3 p j d) = v (ix3 (0 : Fin 1) j d) := by
  refine broadcastInDim_apply ![0, 1, 2] h v (ix3 p j d) (ix3 (0 : Fin 1) j d) fun ax => ?_
  match ax with
  | ⟨0, _⟩ => rfl
  | ⟨1, _⟩ =>
    show j.val = if b = 1 then 0 else j.val
    split
    · have := j.isLt; omega
    · rfl
  | ⟨2, _⟩ =>
    show d.val = if c = 1 then 0 else d.val
    split
    · have := d.isLt; omega
    · rfl

end Casts

/-! ## A dense layer over the rows of a matrix -/

section Dense
variable {B K N : ℕ}

/-- The matrix unit's spelling: the product into a zero accumulator with the transposed weights, plus the bias cast
    to one row and broadcast down the rows. -/
theorem dense_kernel_apply (D : DotDims ⟨2, ![B, K]⟩ ⟨2, ![K, N]⟩ ⟨2, ![B, N]⟩) (hD : D = DotDims.plain B K N)
    (xs : FVec Ideal ⟨2, ![B, K]⟩ .f32) (W : FVec Ideal ⟨2, ![N, K]⟩ .f32) (bias : FVec Ideal ⟨1, ![N]⟩ .f32)
    (ht : (⟨2, ![N, K]⟩ : Shape).Transposes [1, 0] ⟨2, ![K, N]⟩)
    (h1 : (⟨1, ![N]⟩ : Shape).ShapeCasts ⟨2, ![1, N]⟩) (hb : (⟨2, ![1, N]⟩ : Shape).Broadcasts ⟨2, ![B, N]⟩)
    (p : Fin B) (d : Fin N) :
    addf (matmul D none xs (transpose ⟨2, ![K, N]⟩ [1, 0] W ht) (constant ⟨2, ![B, N]⟩ .f32 0x00000000#32))
        (broadcastTo ⟨2, ![B, N]⟩ (shapeCast ⟨2, ![1, N]⟩ bias h1) hb) (ix2 p d)
      = (∑ k : Fin K, xs (ix2 p k) * W (ix2 d k)) + bias (ix1 d) := by
  subst hD
  rw [addf_apply, matmul_zero_eq_dotGeneral, StackMember.dotGeneral_plain_apply, broadcastTo_1b_ab_apply,
    shapeCast_a_1a_apply]
  congr 1
  exact Finset.sum_congr rfl fun k _ => by rw [transpose_ix2_apply]

/-- The host's spelling: the contraction with the transposed weights, plus the bias broadcast to one row and then
    down the rows. -/
theorem dense_host_apply (D : DotDims ⟨2, ![B, K]⟩ ⟨2, ![K, N]⟩ ⟨2, ![B, N]⟩) (hD : D = DotDims.plain B K N)
    (xs : FVec Ideal ⟨2, ![B, K]⟩ .f32) (W : FVec Ideal ⟨2, ![N, K]⟩ .f32) (bias : FVec Ideal ⟨1, ![N]⟩ .f32)
    (ht : (⟨2, ![N, K]⟩ : Shape).Transposes [1, 0] ⟨2, ![K, N]⟩)
    (h1 : (⟨1, ![N]⟩ : Shape).BroadcastsInDim ⟨2, ![1, N]⟩ ![1])
    (hb : (⟨2, ![1, N]⟩ : Shape).BroadcastsInDim ⟨2, ![B, N]⟩ ![0, 1])
    (p : Fin B) (d : Fin N) :
    addf (Host.dotGeneral D none xs (transpose ⟨2, ![K, N]⟩ [1, 0] W ht))
        (broadcastInDim ⟨2, ![B, N]⟩ ![0, 1] hb (broadcastInDim ⟨2, ![1, N]⟩ ![1] h1 bias)) (ix2 p d)
      = (∑ k : Fin K, xs (ix2 p k) * W (ix2 d k)) + bias (ix1 d) := by
  subst hD
  rw [addf_apply, StackMember.dotGeneral_plain_apply, broadcastInDim_oneRow_apply, broadcastInDim_b_1b_apply]
  congr 1
  exact Finset.sum_congr rfl fun k _ => by rw [transpose_ix2_apply]

end Dense

/-! ## A rank-one layer -/

section RankOne
variable {B J N : ℕ}

/-- The vector spelling: the readings given a trailing unit axis, the two tables a leading one, all broadcast to the
    common shape, multiplied and added. -/
theorem rankOne_kernel_apply (xs : FVec Ideal ⟨2, ![B, J]⟩ .f32) (W b : FVec Ideal ⟨2, ![J, N]⟩ .f32)
    (hx : (⟨2, ![B, J]⟩ : Shape).ShapeCasts ⟨3, ![B, J, 1]⟩) (hw : (⟨2, ![J, N]⟩ : Shape).ShapeCasts ⟨3, ![1, J, N]⟩)
    (hbx : (⟨3, ![B, J, 1]⟩ : Shape).Broadcasts ⟨3, ![B, J, N]⟩) (hbw : (⟨3, ![1, J, N]⟩ : Shape).Broadcasts ⟨3, ![B, J, N]⟩)
    (p : Fin B) (j : Fin J) (d : Fin N) :
    addf (mulf (broadcastTo ⟨3, ![B, J, N]⟩ (shapeCast ⟨3, ![B, J, 1]⟩ xs hx) hbx)
          (broadcastTo ⟨3, ![B, J, N]⟩ (shapeCast ⟨3, ![1, J, N]⟩ W hw) hbw))
        (broadcastTo ⟨3, ![B, J, N]⟩ (shapeCast ⟨3, ![1, J, N]⟩ b hw) hbw) (ix3 p j d)
      = xs (ix2 p j) * W (ix2 j d) + b (ix2 j d) := by
  rw [addf_apply, mulf_apply, broadcastTo_ab1_abc_apply, broadcastTo_1bc_abc_apply, broadcastTo_1bc_abc_apply,
    shapeCast_ab_ab1_apply, shapeCast_ab_1ab_apply, shapeCast_ab_1ab_apply]

/-- The host's spelling: the same with every broadcast naming its axes. -/
theorem rankOne_host_apply (xs : FVec Ideal ⟨2, ![B, J]⟩ .f32) (W b : FVec Ideal ⟨2, ![J, N]⟩ .f32)
    (hx : (⟨2, ![B, J]⟩ : Shape).BroadcastsInDim ⟨3, ![B, J, 1]⟩ ![0, 1])
    (hw : (⟨2, ![J, N]⟩ : Shape).BroadcastsInDim ⟨3, ![1, J, N]⟩ ![1, 2])
    (hbx : (⟨3, ![B, J, 1]⟩ : Shape).BroadcastsInDim ⟨3, ![B, J, N]⟩ ![0, 1, 2])
    (hbw : (⟨3, ![1, J, N]⟩ : Shape).BroadcastsInDim ⟨3, ![B, J, N]⟩ ![0, 1, 2])
    (p : Fin B) (j : Fin J) (d : Fin N) :
    addf (mulf (broadcastInDim ⟨3, ![B, J, N]⟩ ![0, 1, 2] hbx (broadcastInDim ⟨3, ![B, J, 1]⟩ ![0, 1] hx xs))
          (broadcastInDim ⟨3, ![B, J, N]⟩ ![0, 1, 2] hbw (broadcastInDim ⟨3, ![1, J, N]⟩ ![1, 2] hw W)))
        (broadcastInDim ⟨3, ![B, J, N]⟩ ![0, 1, 2] hbw (broadcastInDim ⟨3, ![1, J, N]⟩ ![1, 2] hw b)) (ix3 p j d)
      = xs (ix2 p j) * W (ix2 j d) + b (ix2 j d) := by
  rw [addf_apply, mulf_apply, broadcastInDim_ab1_abc_apply, broadcastInDim_1bc_abc_apply, broadcastInDim_1bc_abc_apply,
    broadcastInDim_ab_ab1_apply, broadcastInDim_bc_1bc_apply, broadcastInDim_bc_1bc_apply]

end RankOne

/-! ## A gather of whole columns -/

section Columns
variable {α : Type}

/-- The dimension numbers of a gather of whole columns: operand [R, C], start indices [K, 1] (one column index each),
    result [R, K]; the slice is a whole column, the column axis collapsed. -/
abbrev colDims (R C K : Nat)
    (wf : GatherDims.WF ⟨2, ![R, C]⟩ ⟨2, ![K, 1]⟩ ⟨2, ![R, K]⟩ [0] [1] [] [1] [] 1 ![R, 1]) :
    GatherDims ⟨2, ![R, C]⟩ ⟨2, ![K, 1]⟩ ⟨2, ![R, K]⟩ where
  offsetDims := [0]
  collapsedSliceDims := [1]
  operandBatchingDims := []
  startIndicesBatchingDims := []
  startIndexMap := [1]
  indexVectorDim := 1
  sliceSizes := ![R, 1]
  wf := wf

/-- THE COLUMN GATHER READ AT (p, k): the operand at row p and column `idx[k, 0]`, read signed and clamped into
    [0, C − 1]. -/
theorem gather_cols_apply {R C K w : Nat} (hC : 0 < C)
    (wf : GatherDims.WF ⟨2, ![R, C]⟩ ⟨2, ![K, 1]⟩ ⟨2, ![R, K]⟩ [0] [1] [] [1] [] 1 ![R, 1])
    (x : (⟨2, ![R, C]⟩ : Shape).Idx → α) (idx : IVec ⟨2, ![K, 1]⟩ w) (p : Fin R) (k : Fin K) :
    Host.gather (colDims R C K wf) x idx (ix2 p k)
      = x (ix2 p ⟨min (idx (ix2 k (0 : Fin 1))).toInt.toNat (C - 1), by omega⟩) := by
  unfold Host.gather
  congr 1
  funext a
  refine Fin.ext ?_
  show (colDims R C K wf).start (ix2 p k) idx a + (colDims R C K wf).batchCoord (ix2 p k) a + (colDims R C K wf).offCoord (ix2 p k) a = _
  rw [GatherDims.batchCoord_eq_zero _ _ _ List.not_mem_nil]
  match a with
  | ⟨0, _⟩ =>
    -- the row axis: no start index names it; it is the one kept axis, read off the result's offset axis
    have hs : (colDims R C K wf).start (ix2 p k) idx (0 : Fin 2) = 0 := by
      unfold GatherDims.start
      rw [dif_neg (show (0 : Fin 2) ∉ (colDims R C K wf).startIndexMap from by show (0 : Fin 2) ∉ [(1 : Fin 2)]; decide)]
    have ho : (colDims R C K wf).offCoord (ix2 p k) (0 : Fin 2) = p.val := by
      unfold GatherDims.offCoord
      rw [dif_pos ((GatherDims.mem_sKept (colDims R C K wf) (0 : Fin 2)).mpr ⟨by show (0 : Fin 2) ∉ [(1 : Fin 2)]; decide, List.not_mem_nil⟩)]
      rfl
    show (colDims R C K wf).start (ix2 p k) idx (0 : Fin 2) + 0 + (colDims R C K wf).offCoord (ix2 p k) (0 : Fin 2) = p.val
    rw [hs, ho]; omega
  | ⟨1, _⟩ =>
    -- the column axis: collapsed, so no offset; its start is the table's entry, clamped
    have ho : (colDims R C K wf).offCoord (ix2 p k) (1 : Fin 2) = 0 :=
      GatherDims.offCoord_eq_zero _ _ _ (fun h => ((GatherDims.mem_sKept _ _).mp h).1 (List.mem_singleton.mpr rfl))
    show (colDims R C K wf).start (ix2 p k) idx (1 : Fin 2) + 0 + (colDims R C K wf).offCoord (ix2 p k) (1 : Fin 2)
      = min (idx (ix2 k (0 : Fin 1))).toInt.toNat (C - 1)
    rw [ho]
    unfold GatherDims.start
    rw [dif_pos (show (1 : Fin 2) ∈ (colDims R C K wf).startIndexMap from List.mem_singleton.mpr rfl)]
    have hsi : (colDims R C K wf).siIdx (ix2 p k) ⟨List.idxOf (1 : Fin 2) (colDims R C K wf).startIndexMap,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl

end Columns

end Cert.RowLayers

end
-- ==== Proof.RefTokens.lean ====
/-
  The reference's result, entry by entry.

  Each of the three index tables survives the wrap of negative indices unchanged (its mask is false everywhere),
  so each gather picks, for every row, the columns the table lists — all within range, so the clamp does nothing.
  The two dense layers are contractions with transposed weights plus a bias laid along the rows; the single sensors
  are a product of broadcasts.  The concatenation along the token axis is then the token embedding of all 8192 rows.
-/
import proofs.«110688_j64269890618106_1_alg».proof.Proof.RefRun
import proofs.«110688_j64269890618106_1_alg».proof.Proof.Tokens
import proofs.«110688_j64269890618106_1_alg».proof.Proof.LibRowLayers

noncomputable section

open scoped BigOperators

namespace Cert.RefTokens

open Cert.ReferenceIdeal Cert.ReferenceIdeal.Gen Cert.Tokens Cert.RowLayers Idealize.ShloMosaic Idealize.ShloMosaic.ValueIdx

/-! ## The index tables -/

/-- A table of `a` words given a trailing unit axis reads, at (k, ·), the table at k. -/
theorem broadcastInDim_a_a1_apply {α : Type} {a : ℕ} (v : (⟨1, ![a]⟩ : Shape).Idx → α)
    (h : (⟨1, ![a]⟩ : Shape).BroadcastsInDim ⟨2, ![a, 1]⟩ ![0]) (k : Fin a) (u : Fin 1) :
    broadcastInDim ⟨2, ![a, 1]⟩ ![0] h v (ix2 k u) = v (ix1 k) := by
  refine broadcastInDim_apply ![0] h v (ix2 k u) (ix1 k) fun ax => ?_
  match ax with
  | ⟨0, _⟩ =>
    show k.val = if a = 1 then 0 else k.val
    split
    · have := k.isLt; omega
    · rfl

/-- The forehand table after the wrap holds its literal entries. -/
theorem wrapFore_apply (k : Fin 9) : wrapFore (F := Ideal) (ix2 k (0 : Fin 1)) = lit0 k := by
  unfold wrapFore
  rw [broadcastInDim_a_a1_apply, select_apply, constantI_apply, select_zero]
  exact congrArg lit0 (Fin.ext (Shape.rowMajor_val_one _))
/-- The palm table after the wrap holds its literal entries. -/
theorem wrapPalm_apply (k : Fin 7) : wrapPalm (F := Ideal) (ix2 k (0 : Fin 1)) = lit1 k := by
  unfold wrapPalm
  rw [broadcastInDim_a_a1_apply, select_apply, constantI_apply, select_zero]
  exact congrArg lit1 (Fin.ext (Shape.rowMajor_val_one _))
/-- The single-sensor table after the wrap holds its literal entries. -/
theorem wrapSingle_apply (k : Fin 23) : wrapSingle (F := Ideal) (ix2 k (0 : Fin 1)) = lit2 k := by
  unfold wrapSingle
  rw [broadcastInDim_a_a1_apply, select_apply, constantI_apply, select_zero]
  exact congrArg lit2 (Fin.ext (Shape.rowMajor_val_one _))

/-- Every entry of the three tables, read signed and clamped to the 39 columns, is the group's column. -/
theorem fore_idx : ∀ k : Fin 9, min (lit0 k).toInt.toNat (39 - 1) = (foreCol k).val := by decide
theorem palm_idx : ∀ k : Fin 7, min (lit1 k).toInt.toNat (39 - 1) = (palmCol k).val := by decide
theorem single_idx : ∀ k : Fin 23, min (lit2 k).toInt.toNat (39 - 1) = (singleCol k).val := by decide

/-! ## The gathers -/

variable (x : FVec Ideal S8192x39 .f32)

theorem gathered_fore (b : Fin 8192) (k : Fin 9) :
    Host.gather gather_S8192x39_S9x1_S8192x9_0_1_n_n_1_1_81921 x (wrapFore (F := Ideal)) (ix2 b k) = x (ix2 b (foreCol k)) := by
  refine (gather_cols_apply (by decide) gather_S8192x39_S9x1_S8192x9_0_1_n_n_1_1_81921_wf x _ b k).trans ?_
  refine congrArg (fun c => x (ix2 b c)) (Fin.ext ?_)
  show min (wrapFore (F := Ideal) (ix2 k (0 : Fin 1))).toInt.toNat (39 - 1) = (foreCol k).val
  rw [wrapFore_apply]; exact fore_idx k

theorem gathered_palm (b : Fin 8192) (k : Fin 7) :
    Host.gather gather_S8192x39_S7x1_S8192x7_0_1_n_n_1_1_81921 x (wrapPalm (F := Ideal)) (ix2 b k) = x (ix2 b (palmCol k)) := by
  refine (gather_cols_apply (by decide) gather_S8192x39_S7x1_S8192x7_0_1_n_n_1_1_81921_wf x _ b k).trans ?_
  refine congrArg (fun c => x (ix2 b c)) (Fin.ext ?_)
  show min (wrapPalm (F := Ideal) (ix2 k (0 : Fin 1))).toInt.toNat (39 - 1) = (palmCol k).val
  rw [wrapPalm_apply]; exact palm_idx k

theorem gathered_single (b : Fin 8192) (k : Fin 23) :
    Host.gather gather_S8192x39_S23x1_S8192x23_0_1_n_n_1_1_81921 x (wrapSingle (F := Ideal)) (ix2 b k) = x (ix2 b (singleCol k)) := by
  refine (gather_cols_apply (by decide) gather_S8192x39_S23x1_S8192x23_0_1_n_n_1_1_81921_wf x _ b k).trans ?_
  refine congrArg (fun c => x (ix2 b c)) (Fin.ext ?_)
  show min (wrapSingle (F := Ideal) (ix2 k (0 : Fin 1))).toInt.toNat (39 - 1) = (singleCol k).val
  rw [wrapSingle_apply]; exact single_idx k

/-! ## The layers, and the whole result -/

variable (Wf : FVec Ideal S512x9 .f32) (bf : FVec Ideal S512 .f32) (Wp : FVec Ideal S512x7 .f32) (bp : FVec Ideal S512 .f32)
  (Ws bs : FVec Ideal S23x512 .f32)

theorem refFore_apply (b : Fin 8192) (d : Fin 512) : refFore (F := Ideal) x Wf bf (ix2 b d) = tokFore (rowOf x b) Wf bf d := by
  unfold refFore
  refine (dense_host_apply _ rfl _ Wf bf _ _ _ b d).trans ?_
  unfold tokFore rowOf
  congr 1
  exact Finset.sum_congr rfl fun k _ => by rw [gathered_fore]

theorem refPalm_apply (b : Fin 8192) (d : Fin 512) : refPalm (F := Ideal) x Wp bp (ix2 b d) = tokPalm (rowOf x b) Wp bp d := by
  unfold refPalm
  refine (dense_host_apply _ rfl _ Wp bp _ _ _ b d).trans ?_
  unfold tokPalm rowOf
  congr 1
  exact Finset.sum_congr rfl fun k _ => by rw [gathered_palm]

theorem refSingle_apply (b : Fin 8192) (j : Fin 23) (d : Fin 512) :
    refSingle (F := Ideal) x Ws bs (ix3 b j d) = tokSingle (rowOf x b) Ws bs j d := by
  unfold refSingle
  refine (rankOne_host_apply _ Ws bs _ _ _ _ b j d).trans ?_
  unfold tokSingle rowOf
  rw [gathered_single]

/-- The reference's composed value is the token embedding of its 8192 rows. -/
theorem refOut_eq : refOut (F := Ideal) x Wf bf Wp bp Ws bs = tokens Wf bf Wp bp Ws bs x := by
  unfold refOut
  refine concat_tokens Wf bf Wp bp Ws bs x _ _ _ _ _ ?_ ?_ ?_ ?_
  · intro b d
    exact (broadcastInDim_ac_a1c_apply _ _ b 0 d).trans (refFore_apply x Wf bf b d)
  · intro b d
    exact (slice3_axis1_apply 0 _ _ b (0 : Fin 1) d (0 : Fin 23) rfl).trans (refSingle_apply x Ws bs b 0 d)
  · intro b d
    exact (broadcastInDim_ac_a1c_apply _ _ b 0 d).trans (refPalm_apply x Wp bp b d)
  · intro b j d
    exact (slice3_axis1_apply 1 _ _ b j d (⟨j.val + 1, by omega⟩ : Fin 23) (by show j.val + 1 = 1 + j.val; omega)).trans
      (refSingle_apply x Ws bs b _ d)

end Cert.RefTokens

end
-- ==== Proof.KernelTokens.lean ====
/-
  The kernel's body, as a value.

  One grid step takes a block of 128 rows of readings and the whole parameter arrays.  It picks the forehand,
  palm and single-sensor columns by laying unit-stride column slices side by side, runs the two dense layers on
  the matrix unit (into a zero accumulator) and the rank-one layer on the vector unit, and lays the 25 tokens of
  each row side by side.  Entry by entry that is the token embedding of the block's rows.
-/
import proofs.«110688_j64269890618106_1_alg».proof.Proof.Gen.KernelIdeal.Skeleton
import proofs.«110688_j64269890618106_1_alg».proof.Proof.Tokens
import proofs.«110688_j64269890618106_1_alg».proof.Proof.LibRowLayers

noncomputable section

open scoped BigOperators

namespace Cert.KernelTokens

open Cert.KernelIdeal Cert.KernelIdeal.Gen Cert.Tokens Cert.RowLayers Idealize.ShloMosaic Idealize.ShloMosaic.ValueIdx

/-! ## The three column selections -/

/-- The forehand columns as numbers: three runs 0–2, 27–28, 32–34, and column 38. -/
theorem foreCol_val : ∀ k : Fin 9, (foreCol k).val
    = if k.val < 3 then k.val else if k.val < 5 then k.val + 24 else if k.val < 8 then k.val + 27 else 38 := by decide
/-- The palm columns as numbers: column 4, then the runs 29–31 and 35–37. -/
theorem palmCol_val : ∀ k : Fin 7, (palmCol k).val
    = if k.val < 1 then 4 else if k.val < 4 then k.val + 28 else k.val + 31 := by decide

variable (x0 : FVec Ideal S128x39 .f32)

/-- Four column slices side by side are the forehand columns, in order. -/
theorem cols_fore (p : Fin 128) (k : Fin 9) :
    concatenate S128x9 1 [⟨S128x3, extractStridedSlice S128x3 ![0, 0] x0 slices_S128x39_o0_0_S128x3⟩,
        ⟨S128x2, extractStridedSlice S128x2 ![0, 27] x0 slices_S128x39_o0_27_S128x2⟩,
        ⟨S128x3, extractStridedSlice S128x3 ![0, 32] x0 slices_S128x39_o0_32_S128x3⟩,
        ⟨S128x1, extractStridedSlice S128x1 ![0, 38] x0 slices_S128x39_o0_38_S128x1⟩]
      concatenates_S128x3_S128x2_S128x3_S128x1_S128x9_d1 (ix2 p k) = x0 (ix2 p (foreCol k)) := by
  have hv := foreCol_val k
  have hk9 := k.isLt
  by_cases h3 : k.val < 3
  · refine (concatenate_apply_piece 1 [⟨S128x3, extractStridedSlice S128x3 ![0, 0] x0 slices_S128x39_o0_0_S128x3⟩, ⟨S128x2, extractStridedSlice S128x2 ![0, 27] x0 slices_S128x39_o0_27_S128x2⟩, ⟨S128x3, extractStridedSlice S128x3 ![0, 32] x0 slices_S128x39_o0_32_S128x3⟩, ⟨S128x1, extractStridedSlice S128x1 ![0, 38] x0 slices_S128x39_o0_38_S128x1⟩] concatenates_S128x3_S128x2_S128x3_S128x1_S128x9_d1 (ix2 p k) 0 (by show 0 < 4; omega)
      S128x3 _ rfl rfl 0 rfl (ix2 p (⟨k.val, h3⟩ : Fin 3)) ?_ ?_).trans ?_
    · intro a ha
      match a with
      | ⟨0, _⟩ => rfl
      | ⟨1, _⟩ => exact absurd rfl ha
    · show 0 + k.val = k.val
      omega
    · exact slice2_axis1_apply 0 x0 _ p _ (foreCol k) (by rw [hv, if_pos h3]; show k.val = 0 + k.val; omega)
  by_cases h5 : k.val < 5
  · refine (concatenate_apply_piece 1 [⟨S128x3, extractStridedSlice S128x3 ![0, 0] x0 slices_S128x39_o0_0_S128x3⟩, ⟨S128x2, extractStridedSlice S128x2 ![0, 27] x0 slices_S128x39_o0_27_S128x2⟩, ⟨S128x3, extractStridedSlice S128x3 ![0, 32] x0 slices_S128x39_o0_32_S128x3⟩, ⟨S128x1, extractStridedSlice S128x1 ![0, 38] x0 slices_S128x39_o0_38_S128x1⟩] concatenates_S128x3_S128x2_S128x3_S128x1_S128x9_d1 (ix2 p k) 1 (by show 1 < 4; omega)
      S128x2 _ rfl rfl 3 rfl (ix2 p (⟨k.val - 3, by omega⟩ : Fin 2)) ?_ ?_).trans ?_
    · intro a ha
      match a with
      | ⟨0, _⟩ => rfl
      | ⟨1, _⟩ => exact absurd rfl ha
    · show 3 + (k.val - 3) = k.val
      omega
    · exact slice2_axis1_apply 27 x0 _ p _ (foreCol k) (by rw [hv, if_neg h3, if_pos h5]; show k.val + 24 = 27 + (k.val - 3); omega)
  by_cases h8 : k.val < 8
  · refine (concatenate_apply_piece 1 [⟨S128x3, extractStridedSlice S128x3 ![0, 0] x0 slices_S128x39_o0_0_S128x3⟩, ⟨S128x2, extractStridedSlice S128x2 ![0, 27] x0 slices_S128x39_o0_27_S128x2⟩, ⟨S128x3, extractStridedSlice S128x3 ![0, 32] x0 slices_S128x39_o0_32_S128x3⟩, ⟨S128x1, extractStridedSlice S128x1 ![0, 38] x0 slices_S128x39_o0_38_S128x1⟩] concatenates_S128x3_S128x2_S128x3_S128x1_S128x9_d1 (ix2 p k) 2 (by show 2 < 4; omega)
      S128x3 _ rfl rfl 5 rfl (ix2 p (⟨k.val - 5, by omega⟩ : Fin 3)) ?_ ?_).trans ?_
    · intro a ha
      match a with
      | ⟨0, _⟩ => rfl
      | ⟨1, _⟩ => exact absurd rfl ha
    · show 5 + (k.val - 5) = k.val
      omega
    · exact slice2_axis1_apply 32 x0 _ p _ (foreCol k) (by rw [hv, if_neg h3, if_neg h5, if_pos h8]; show k.val + 27 = 32 + (k.val - 5); omega)
  · refine (concatenate_apply_piece 1 [⟨S128x3, extractStridedSlice S128x3 ![0, 0] x0 slices_S128x39_o0_0_S128x3⟩, ⟨S128x2, extractStridedSlice S128x2 ![0, 27] x0 slices_S128x39_o0_27_S128x2⟩, ⟨S128x3, extractStridedSlice S128x3 ![0, 32] x0 slices_S128x39_o0_32_S128x3⟩, ⟨S128x1, extractStridedSlice S128x1 ![0, 38] x0 slices_S128x39_o0_38_S128x1⟩] concatenates_S128x3_S128x2_S128x3_S128x1_S128x9_d1 (ix2 p k) 3 (by show 3 < 4; omega)
      S128x1 _ rfl rfl 8 rfl (ix2 p (⟨k.val - 8, by omega⟩ : Fin 1)) ?_ ?_).trans ?_
    · intro a ha
      match a with
      | ⟨0, _⟩ => rfl
      | ⟨1, _⟩ => exact absurd rfl ha
    · show 8 + (k.val - 8) = k.val
      omega
    · exact slice2_axis1_apply 38 x0 _ p _ (foreCol k) (by rw [hv, if_neg h3, if_neg h5, if_neg h8]; show 38 = 38 + (k.val - 8); omega)

/-- Three column slices side by side are the palm columns, in order. -/
theorem cols_palm (p : Fin 128) (k : Fin 7) :
    concatenate S128x7 1 [⟨S128x1, extractStridedSlice S128x1 ![0, 4] x0 slices_S128x39_o0_4_S128x1⟩,
        ⟨S128x3, extractStridedSlice S128x3 ![0, 29] x0 slices_S128x39_o0_29_S128x3⟩,
        ⟨S128x3, extractStridedSlice S128x3 ![0, 35] x0 slices_S128x39_o0_35_S128x3⟩]
      concatenates_S128x1_S128x3_S128x3_S128x7_d1 (ix2 p k) = x0 (ix2 p (palmCol k)) := by
  have hv := palmCol_val k
  have hk7 := k.isLt
  by_cases h1 : k.val < 1
  · refine (concatenate_apply_piece 1 [⟨S128x1, extractStridedSlice S128x1 ![0, 4] x0 slices_S128x39_o0_4_S128x1⟩, ⟨S128x3, extractStridedSlice S128x3 ![0, 29] x0 slices_S128x39_o0_29_S128x3⟩, ⟨S128x3, extractStridedSlice S128x3 ![0, 35] x0 slices_S128x39_o0_35_S128x3⟩] concatenates_S128x1_S128x3_S128x3_S128x7_d1 (ix2 p k) 0 (by show 0 < 3; omega)
      S128x1 _ rfl rfl 0 rfl (ix2 p (⟨k.val, h1⟩ : Fin 1)) ?_ ?_).trans ?_
    · intro a ha
      match a with
      | ⟨0, _⟩ => rfl
      | ⟨1, _⟩ => exact absurd rfl ha
    · show 0 + k.val = k.val
      omega
    · exact slice2_axis1_apply 4 x0 _ p _ (palmCol k) (by rw [hv, if_pos h1]; show 4 = 4 + k.val; omega)
  by_cases h4 : k.val < 4
  · refine (concatenate_apply_piece 1 [⟨S128x1, extractStridedSlice S128x1 ![0, 4] x0 slices_S128x39_o0_4_S128x1⟩, ⟨S128x3, extractStridedSlice S128x3 ![0, 29] x0 slices_S128x39_o0_29_S128x3⟩, ⟨S128x3, extractStridedSlice S128x3 ![0, 35] x0 slices_S128x39_o0_35_S128x3⟩] concatenates_S128x1_S128x3_S128x3_S128x7_d1 (ix2 p k) 1 (by show 1 < 3; omega)
      S128x3 _ rfl rfl 1 rfl (ix2 p (⟨k.val - 1, by omega⟩ : Fin 3)) ?_ ?_).trans ?_
    · intro a ha
      match a with
      | ⟨0, _⟩ => rfl
      | ⟨1, _⟩ => exact absurd rfl ha
    · show 1 + (k.val - 1) = k.val
      omega
    · exact slice2_axis1_apply 29 x0 _ p _ (palmCol k) (by rw [hv, if_neg h1, if_pos h4]; show k.val + 28 = 29 + (k.val - 1); omega)
  · refine (concatenate_apply_piece 1 [⟨S128x1, extractStridedSlice S128x1 ![0, 4] x0 slices_S128x39_o0_4_S128x1⟩, ⟨S128x3, extractStridedSlice S128x3 ![0, 29] x0 slices_S128x39_o0_29_S128x3⟩, ⟨S128x3, extractStridedSlice S128x3 ![0, 35] x0 slices_S128x39_o0_35_S128x3⟩] concatenates_S128x1_S128x3_S128x3_S128x7_d1 (ix2 p k) 2 (by show 2 < 3; omega)
      S128x3 _ rfl rfl 4 rfl (ix2 p (⟨k.val - 4, by omega⟩ : Fin 3)) ?_ ?_).trans ?_
    · intro a ha
      match a with
      | ⟨0, _⟩ => rfl
      | ⟨1, _⟩ => exact absurd rfl ha
    · show 4 + (k.val - 4) = k.val
      omega
    · exact slice2_axis1_apply 35 x0 _ p _ (palmCol k) (by rw [hv, if_neg h1, if_neg h4]; show k.val + 31 = 35 + (k.val - 4); omega)

/-- Column 3 beside columns 5–26 are the single-sensor columns, in order. -/
theorem cols_single (p : Fin 128) (j : Fin 23) :
    concatenate S128x23 1 [⟨S128x1, extractStridedSlice S128x1 ![0, 3] x0 slices_S128x39_o0_3_S128x1⟩,
        ⟨S128x22, extractStridedSlice S128x22 ![0, 5] x0 slices_S128x39_o0_5_S128x22⟩]
      concatenates_S128x1_S128x22_S128x23_d1 (ix2 p j) = x0 (ix2 p (singleCol j)) := by
  have hj := j.isLt
  by_cases h0 : j.val = 0
  · refine (concatenate_apply_piece 1 [⟨S128x1, extractStridedSlice S128x1 ![0, 3] x0 slices_S128x39_o0_3_S128x1⟩, ⟨S128x22, extractStridedSlice S128x22 ![0, 5] x0 slices_S128x39_o0_5_S128x22⟩] concatenates_S128x1_S128x22_S128x23_d1 (ix2 p j) 0 (by show 0 < 2; omega)
      S128x1 _ rfl rfl 0 rfl (ix2 p (⟨j.val, by omega⟩ : Fin 1)) ?_ ?_).trans ?_
    · intro a ha
      match a with
      | ⟨0, _⟩ => rfl
      | ⟨1, _⟩ => exact absurd rfl ha
    · show 0 + j.val = j.val
      omega
    · exact slice2_axis1_apply 3 x0 _ p _ (singleCol j) (by show (if j.val = 0 then 3 else j.val + 4) = 3 + j.val; rw [if_pos h0]; omega)
  · refine (concatenate_apply_piece 1 [⟨S128x1, extractStridedSlice S128x1 ![0, 3] x0 slices_S128x39_o0_3_S128x1⟩, ⟨S128x22, extractStridedSlice S128x22 ![0, 5] x0 slices_S128x39_o0_5_S128x22⟩] concatenates_S128x1_S128x22_S128x23_d1 (ix2 p j) 1 (by show 1 < 2; omega)
      S128x22 _ rfl rfl 1 rfl (ix2 p (⟨j.val - 1, by omega⟩ : Fin 22)) ?_ ?_).trans ?_
    · intro a ha
      match a with
      | ⟨0, _⟩ => rfl
      | ⟨1, _⟩ => exact absurd rfl ha
    · show 1 + (j.val - 1) = j.val
      omega
    · exact slice2_axis1_apply 5 x0 _ p _ (singleCol j) (by show (if j.val = 0 then 3 else j.val + 4) = 5 + (j.val - 1); rw [if_neg h0]; omega)

/-! ## The body's one stored value -/

variable (x1 : FVec Ideal S512x9 .f32) (x2 : FVec Ideal S512 .f32) (x3 : FVec Ideal S512x7 .f32) (x4 : FVec Ideal S512 .f32)
  (x5 x6 : FVec Ideal S23x512 .f32)

/-- What a grid step stores, from the block of readings and the parameters it loaded, is the token embedding of the
    block's 128 rows. -/
theorem pay_eq : k0_pay1 (F := Ideal) x0 x1 x2 x3 x4 x5 x6 = tokens x1 x2 x3 x4 x5 x6 x0 := by
  unfold k0_pay1
  refine concat_tokens x1 x2 x3 x4 x5 x6 x0 _ _ _ _ _ ?_ ?_ ?_ ?_
  · intro b d
    refine (shapeCast_ab_a1b_apply _ _ b 0 d).trans ?_
    refine (dense_kernel_apply _ rfl _ x1 x2 _ _ _ b d).trans ?_
    unfold tokFore rowOf
    congr 1
    exact Finset.sum_congr rfl fun k _ => by rw [cols_fore]
  · intro b d
    refine (slice3_axis1_apply 0 _ _ b (0 : Fin 1) d (0 : Fin 23) rfl).trans ?_
    refine (rankOne_kernel_apply _ x5 x6 _ _ _ _ b 0 d).trans ?_
    unfold tokSingle rowOf
    rw [cols_single]
  · intro b d
    refine (shapeCast_ab_a1b_apply _ _ b 0 d).trans ?_
    refine (dense_kernel_apply _ rfl _ x3 x4 _ _ _ b d).trans ?_
    unfold tokPalm rowOf
    congr 1
    exact Finset.sum_congr rfl fun k _ => by rw [cols_palm]
  · intro b j d
    refine (slice3_axis1_apply 1 _ _ b j d (⟨j.val + 1, by omega⟩ : Fin 23) (by show j.val + 1 = 1 + j.val; omega)).trans ?_
    refine (rankOne_kernel_apply _ x5 x6 _ _ _ _ b _ d).trans ?_
    unfold tokSingle rowOf
    rw [cols_single]

end Cert.KernelTokens

end
-- ==== Proof.KernelArray.lean ====
/-
  From blocks to the whole array.

  The grid has 64 steps; step t reads rows 128·t … 128·t + 127 of the readings and the whole of every parameter
  array, and writes rows 128·t … 128·t + 127 of the result.  A row's tokens depend on that row only, so what step
  t writes is exactly rows 128·t … of the token embedding of the whole input; the 64 blocks tile the result, so
  the result array ends as the token embedding of all 8192 rows.
-/
import proofs.«110688_j64269890618106_1_alg».proof.Proof.Gen.KernelIdeal.Value
import proofs.«110688_j64269890618106_1_alg».proof.Proof.Tokens
import proofs.«110688_j64269890618106_1_alg».proof.Proof.KernelTokens

noncomputable section

namespace Cert.KernelArray

open Cert.KernelIdeal Cert.KernelIdeal.Gen Cert.Tokens Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The index maps over the grid: the readings' and the result's block index is the step on the row axis and zero on
    the others; every parameter's block index is zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 3) = t.val ∧ win0_7.index t (1 : Fin 3) = 0 ∧ win0_7.index t (2 : Fin 3) = 0 :=
  (by decide +kernel : ∀ t : Fin grid0.N, _)

/-! ## The input blocks -/

/-- Row p of the readings' block at step t is row 128·t + p of the readings. -/
theorem xblk_apply (c : Dev nD) (t : Fin cfg0.N) (p : Fin 128) (k : Fin 39) (r : Fin 8192) (hr : r.val = 128 * t.val + p.val) :
    (iblk m c 0 t : Vec Ideal S128x39 .f32) (ix2 p k) = (V m c main_arg0 : S8192x39.Idx → EReal) (ix2 r k) := by
  obtain ⟨e0, e1, -⟩ := idx_facts t
  unfold iblk
  rw [View.read_apply]
  show V m c main_arg0 _ = V m c main_arg0 _
  congr 1
  funext a
  apply Fin.ext
  match a with
  | ⟨0, _⟩ => show win0_0.index t (0 : Fin 2) * 128 + 1 * p.val = r.val; rw [e0, hr]; omega
  | ⟨1, _⟩ => show win0_0.index t (1 : Fin 2) * 39 + 1 * k.val = k.val; rw [e1]; omega

/-- Every parameter's block, at every step, is the whole parameter array. -/
theorem blk1_eq (c : Dev nD) (t : Fin cfg0.N) : (iblk m c 1 t : Vec Ideal S512x9 .f32) = (V m c main_arg1 : S512x9.Idx → EReal) := by
  obtain ⟨-, -, e0, e1, -⟩ := idx_facts t
  funext y
  unfold iblk
  rw [View.read_apply]
  show V m c main_arg1 _ = V m c main_arg1 y
  congr 1
  funext a
  apply Fin.ext
  match a with
  | ⟨0, _⟩ => show win0_1.index t (0 : Fin 2) * 512 + 1 * (y 0).val = (y 0).val; rw [e0]; omega
  | ⟨1, _⟩ => show win0_1.index t (1 : Fin 2) * 9 + 1 * (y 1).val = (y 1).val; rw [e1]; omega

theorem blk2_eq (c : Dev nD) (t : Fin cfg0.N) : (iblk m c 2 t : Vec Ideal S512 .f32) = (V m c main_arg2 : S512.Idx → EReal) := by
  obtain ⟨-, -, -, -, e0, -⟩ := idx_facts t
  funext y
  unfold iblk
  rw [View.read_apply]
  show V m c main_arg2 _ = V m c main_arg2 y
  congr 1
  funext a
  apply Fin.ext
  match a with
  | ⟨0, _⟩ => show win0_2.index t (0 : Fin 1) * 512 + 1 * (y 0).val = (y 0).val; rw [e0]; omega

theorem blk3_eq (c : Dev nD) (t : Fin cfg0.N) : (iblk m c 3 t : Vec Ideal S512x7 .f32) = (V m c main_arg3 : S512x7.Idx → EReal) := by
  obtain ⟨-, -, -, -, -, e0, e1, -⟩ := idx_facts t
  funext y
  unfold iblk
  rw [View.read_apply]
  show V m c main_arg3 _ = V m c main_arg3 y
  congr 1
  funext a
  apply Fin.ext
  match a with
  | ⟨0, _⟩ => show win0_3.index t (0 : Fin 2) * 512 + 1 * (y 0).val = (y 0).val; rw [e0]; omega
  | ⟨1, _⟩ => show win0_3.index t (1 : Fin 2) * 7 + 1 * (y 1).val = (y 1).val; rw [e1]; omega

theorem blk4_eq (c : Dev nD) (t : Fin cfg0.N) : (iblk m c 4 t : Vec Ideal S512 .f32) = (V m c main_arg4 : S512.Idx → EReal) := by
  obtain ⟨-, -, -, -, -, -, -, e0, -⟩ := idx_facts t
  funext y
  unfold iblk
  rw [View.read_apply]
  show V m c main_arg4 _ = V m c main_arg4 y
  congr 1
  funext a
  apply Fin.ext
  match a with
  | ⟨0, _⟩ => show win0_4.index t (0 : Fin 1) * 512 + 1 * (y 0).val = (y 0).val; rw [e0]; omega

theorem blk5_eq (c : Dev nD) (t : Fin cfg0.N) : (iblk m c 5 t : Vec Ideal S23x512 .f32) = (V m c main_arg5 : S23x512.Idx → EReal) := by
  obtain ⟨-, -, -, -, -, -, -, -, e0, e1, -⟩ := idx_facts t
  funext y
  unfold iblk
  rw [View.read_apply]
  show V m c main_arg5 _ = V m c main_arg5 y
  congr 1
  funext a
  apply Fin.ext
  match a with
  | ⟨0, _⟩ => show win0_5.index t (0 : Fin 2) * 23 + 1 * (y 0).val = (y 0).val; rw [e0]; omega
  | ⟨1, _⟩ => show win0_5.index t (1 : Fin 2) * 512 + 1 * (y 1).val = (y 1).val; rw [e1]; omega

theorem blk6_eq (c : Dev nD) (t : Fin cfg0.N) : (iblk m c 6 t : Vec Ideal S23x512 .f32) = (V m c main_arg6 : S23x512.Idx → EReal) := by
  obtain ⟨-, -, -, -, -, -, -, -, -, -, e0, e1, -⟩ := idx_facts t
  funext y
  unfold iblk
  rw [View.read_apply]
  show V m c main_arg6 _ = V m c main_arg6 y
  congr 1
  funext a
  apply Fin.ext
  match a with
  | ⟨0, _⟩ => show win0_6.index t (0 : Fin 2) * 23 + 1 * (y 0).val = (y 0).val; rw [e0]; omega
  | ⟨1, _⟩ => show win0_6.index t (1 : Fin 2) * 512 + 1 * (y 1).val = (y 1).val; rw [e1]; omega

/-! ## What a step writes back, and the whole array -/

/-- The token embedding of the argument arrays as the region finds them. -/
abbrev result (c : Dev nD) : S8192x25x512.Idx → EReal :=
  tokens (V m c main_arg1 : S512x9.Idx → EReal) (V m c main_arg2 : S512.Idx → EReal) (V m c main_arg3 : S512x7.Idx → EReal)
    (V m c main_arg4 : S512.Idx → EReal) (V m c main_arg5 : S23x512.Idx → EReal) (V m c main_arg6 : S23x512.Idx → EReal)
    (V m c main_arg0 : S8192x39.Idx → EReal)

/-- The tokens of the block's rows are the rows of the whole embedding under the result's block: a row's tokens depend
    on that row only. -/
theorem block_tokens (c : Dev nD) (t : Fin cfg0.N) (j : S128x25x512.Idx) :
    tokens (V m c main_arg1 : S512x9.Idx → EReal) (V m c main_arg2 : S512.Idx → EReal) (V m c main_arg3 : S512x7.Idx → EReal)
      (V m c main_arg4 : S512.Idx → EReal) (V m c main_arg5 : S23x512.Idx → EReal) (V m c main_arg6 : S23x512.Idx → EReal)
      (iblk m c 0 t : Vec Ideal S128x39 .f32) j
    = result m c (((cfg0.win 7).blk t).view.emb j) := by
  obtain ⟨p, q, d, rfl⟩ : ∃ (p : Fin 128) (q : Fin 25) (d : Fin 512), j = ix3 p q d := ⟨j 0, j 1, j 2, eq_ix3 j⟩
  obtain ⟨-, -, -, -, -, -, -, -, -, -, -, -, e0, e1, e2⟩ := idx_facts t
  have ht : t.val < 64 := Nat.lt_of_lt_of_eq t.isLt N_0
  have hemb : ((cfg0.win 7).blk t).view.emb (ix3 p q d) = (ix3 (⟨128 * t.val + p.val, by omega⟩ : Fin 8192) q d : S8192x25x512.Idx) := by
    funext a
    apply Fin.ext
    match a with
    | ⟨0, _⟩ => show win0_7.index t (0 : Fin 3) * 128 + 1 * p.val = 128 * t.val + p.val; rw [e0]; omega
    | ⟨1, _⟩ => show win0_7.index t (1 : Fin 3) * 25 + 1 * q.val = q.val; rw [e1]; omega
    | ⟨2, _⟩ => show win0_7.index t (2 : Fin 3) * 512 + 1 * d.val = d.val; rw [e2]; omega
  rw [hemb]
  show tokRow (rowOf (iblk m c 0 t : Vec Ideal S128x39 .f32) p) _ _ _ _ _ _ q d = tokRow (rowOf (V m c main_arg0 : S8192x39.Idx → EReal) _) _ _ _ _ _ _ q d
  congr 1
  funext k
  exact xblk_apply m c t p k _ rfl

/-- WHAT STEP t WRITES BACK is block t of the token embedding of the whole argument arrays. -/
theorem flushed7_eq (c : Dev nD) (t : Fin cfg0.N) :
    (dats m 0 c).flushed 7 t = ((cfg0.win 7).blk t).view.read (Elt Ideal) (result m c) := by
  rw [Cert.KernelIdeal.Value.flushed7]
  unfold out0_7
  rw [View.canon_unit_zero hz3]
  simp only [View.ld_unit_zero (S := S128x39) hz2, View.ld_unit_zero (S := S512x9) hz2, View.ld_unit_zero (S := S512) hz1,
    View.ld_unit_zero (S := S512x7) hz2, View.ld_unit_zero (S := S23x512) hz2]
  rw [Cert.KernelTokens.pay_eq, blk1_eq, blk2_eq, blk3_eq, blk4_eq, blk5_eq, blk6_eq]
  funext j
  exact block_tokens m c t j

/-- An index of the result is in step t's block iff each coordinate is in the block's range on its axis. -/
theorem mem_blk7 (t : Fin cfg0.N) (i : S8192x25x512.Idx) :
    i ∈ ((cfg0.win 7).blk t).view.set ↔ ∀ a : Fin 3, win0_7.index t a * S128x25x512.size a ≤ (i a).val ∧ (i a).val < win0_7.index t a * S128x25x512.size a + S128x25x512.size a := by
  show i ∈ ((View.whole main_v0).slice (win0_7.rect t)).set ↔ _
  rw [View.set_slice_whole, Rect.mem_set_unit]
  exact Iff.rfl

/-- Every index of the result lies in the block of the step that holds its row: row r is in block r / 128. -/
theorem cover7 (i : S8192x25x512.Idx) : ∃ t : Fin cfg0.N, (cfg0.win 7).flush t = true ∧ i ∈ ((cfg0.win 7).blk t).view.set := by
  have h0 : (i 0).val < 8192 := (i 0).isLt
  have h1 : (i 1).val < 25 := (i 1).isLt
  have h2 : (i 2).val < 512 := (i 2).isLt
  have hN : cfg0.N = 64 := N_0
  let t : Fin cfg0.N := ⟨(i 0).val / 128, by rw [hN]; omega⟩
  obtain ⟨-, -, -, -, -, -, -, -, -, -, -, -, e0, e1, e2⟩ := idx_facts t
  have htv : t.val = (i 0).val / 128 := rfl
  refine ⟨t, flush0_7 t, ?_⟩
  rw [mem_blk7]
  intro a
  match a with
  | ⟨0, _⟩ => show win0_7.index t (0 : Fin 3) * 128 ≤ (i 0).val ∧ (i 0).val < win0_7.index t (0 : Fin 3) * 128 + 128; rw [e0, htv]; omega
  | ⟨1, _⟩ => show win0_7.index t (1 : Fin 3) * 25 ≤ (i 1).val ∧ (i 1).val < win0_7.index t (1 : Fin 3) * 25 + 25; rw [e1]; omega
  | ⟨2, _⟩ => show win0_7.index t (2 : Fin 3) * 512 ≤ (i 2).val ∧ (i 2).val < win0_7.index t (2 : Fin 3) * 512 + 512; rw [e2]; omega

/-- THE RESULT ARRAY after the run is the token embedding of the argument arrays. -/
theorem final7 (c : Dev nD) : (dats m 0 c).arrAt 7 cfg0.N = result m c :=
  (dats m 0 c).arrAt_eq_of_cover 7 (result m c) (fun t _ => flushed7_eq m c t) cover7

/-- The kernel's run, read: the result array at the token embedding of the arguments, the arguments unchanged. -/
theorem run : θ_run defs (onTc (τ := τ) (main (F := Ideal))) ⟨m, fun _ => 0, ρ⟩ fun r => ∀ c : Dev nD,
      r.2.mem ((c : Thread nD τ).loc main_v0)
        = tokens (m ((c : Thread nD τ).loc main_arg1)) (m ((c : Thread nD τ).loc main_arg2)) (m ((c : Thread nD τ).loc main_arg3))
            (m ((c : Thread nD τ).loc main_arg4)) (m ((c : Thread nD τ).loc main_arg5)) (m ((c : Thread nD τ).loc main_arg6))
            (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final7 m c), (h c).2⟩)
    (Cert.KernelIdeal.Value.run_blocks m ρ)

end Cert.KernelArray

end
-- ==== Proof.lean ====
/-
  Kernel and reference compute one token embedding.

  For each of the 8192 rows of 39 sensor readings the result holds 25 tokens of 512 features: the forehand token
  (a dense layer on nine readings), the wrist token (one reading scaled and shifted), the palm token (a dense layer
  on seven readings) and the tokens of the 22 remaining single sensors (each reading scaled and shifted by its own
  weight and bias vectors).

  The kernel walks the rows in 64 blocks of 128, picking each group's columns by slices laid side by side and
  running the dense layers on the matrix unit; the reference gathers the columns through index tables and contracts
  on the host.  Over the extended reals both are, entry by entry, the same sums of the same products — a product
  into a zero accumulator is the plain contraction, a different way of picking the same columns picks the same
  entries — so no law of arithmetic beyond 0 + s = s is used, and the finiteness of the inputs is never needed.

  The three frames are the generated ones (the kernel's at both instances) and the reference's run with its result
  dropped; the idealisation rewrote nothing, so there is nothing to preserve.
-/
import proofs.«110688_j64269890618106_1_alg».proof.Defs
import proofs.«110688_j64269890618106_1_alg».proof.Proof.Gen.Kernel
import proofs.«110688_j64269890618106_1_alg».proof.Proof.Gen.Kernel.Skeleton
import proofs.«110688_j64269890618106_1_alg».proof.Proof.Gen.Kernel.Launch
import proofs.«110688_j64269890618106_1_alg».proof.Proof.Gen.Kernel.Points
import proofs.«110688_j64269890618106_1_alg».proof.Proof.Gen.Kernel.Frame
import proofs.«110688_j64269890618106_1_alg».proof.Proof.Gen.KernelIdeal
import proofs.«110688_j64269890618106_1_alg».proof.Proof.Gen.KernelIdeal.Skeleton
import proofs.«110688_j64269890618106_1_alg».proof.Proof.Gen.KernelIdeal.Launch
import proofs.«110688_j64269890618106_1_alg».proof.Proof.Gen.KernelIdeal.Points
import proofs.«110688_j64269890618106_1_alg».proof.Proof.Gen.KernelIdeal.Frame
import proofs.«110688_j64269890618106_1_alg».proof.Proof.Gen.ReferenceIdeal
import proofs.«110688_j64269890618106_1_alg».proof.Proof.Gen.Pre_finite_inputs
import proofs.«110688_j64269890618106_1_alg».proof.Proof.RefRun
import proofs.«110688_j64269890618106_1_alg».proof.Proof.RefTokens
import proofs.«110688_j64269890618106_1_alg».proof.Proof.KernelArray
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.RefTokens.run (F := Ideal) m ρ)

/-- The idealisation rewrote no operation. -/
theorem preserves : Cert.preserves_Kernel_KernelIdeal := trivial

/-- Both programs end with the token embedding of their argument arrays; the arrays agree, so the results do. -/
theorem algebraic : Cert.algebraic_KernelIdeal_ReferenceIdeal := by
  intro m ρ m' ρ' _ hagree
  refine ⟨_, Cert.KernelArray.run m ρ, ?_⟩
  refine (θ_run Cert.ReferenceIdeal.defs _ _).mono (fun _ h c => ⟨(h c).1.trans ?_, (h c).2⟩)
    (Cert.RefTokens.run (F := Ideal) m' ρ')
  rw [Cert.RefTokens.refOut_eq]
  obtain ⟨a0, a1, a2, a3, a4, a5, a6⟩ := hagree c
  rw [a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
